-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v17)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v17) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v14) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x2048x4096 : Shape := ⟨3, ![4, 2048, 4096]⟩
abbrev S2048x2048 : Shape := ⟨2, ![2048, 2048]⟩
abbrev S4096 : Shape := ⟨1, ![4096]⟩
abbrev S2048 : Shape := ⟨1, ![2048]⟩
abbrev S_ : Shape := ⟨0, ![]⟩

class Facts : Prop where
  bcast_S_S4x2048x4096 : S_.BroadcastsInDim S4x2048x4096 (![] : Fin 0 → Fin S4x2048x4096.rank)
  reducesTo_S4x2048x4096_S_d0_1_2 : S4x2048x4096.ReducesTo [0, 1, 2] S_
  h_S_ : 0 < S_.numel
  bcast_S_S2048x2048 : S_.BroadcastsInDim S2048x2048 (![] : Fin 0 → Fin S2048x2048.rank)
  reducesTo_S2048x2048_S_d0_1 : S2048x2048.ReducesTo [0, 1] S_
  bcast_S_S4096 : S_.BroadcastsInDim S4096 (![] : Fin 0 → Fin S4096.rank)
  reducesTo_S4096_S_d0 : S4096.ReducesTo [0] S_

variable [Facts]

def fn {F : FTy → Type} [FloatOps F] (main_arg0 : FVec F S4x2048x4096 .f32) (main_arg1 : FVec F S2048x2048 .f32) (main_arg2 : FVec F S4096 .f32) (main_arg3 : IVec S2048 32) (main_arg4 : IVec S2048 32) : IVec S_ 1 :=
  let main_v0 : FVec F S4x2048x4096 .f32 := Host.absf main_arg0
  let main_cst : FVec F S_ .f32 := constant S_ .f32 0x7F800000#32
  let main_v1 : FVec F S4x2048x4096 .f32 := broadcastInDim S4x2048x4096 ![] bcast_S_S4x2048x4096 main_cst
  let main_v2 : IVec S4x2048x4096 1 := cmpf .olt main_v0 main_v1
  let main_c : IVec S_ 1 := constantI S_ 1 1#1
  let main_v3 : IVec S_ 1 := (fun x v => Host.reduce IntOp.andi x v reducesTo_S4x2048x4096_S_d0_1_2 h_S_) main_v2 main_c
  let main_v4 : FVec F S2048x2048 .f32 := Host.absf main_arg1
  let main_cst_0 : FVec F S_ .f32 := constant S_ .f32 0x7F800000#32
  let main_v5 : FVec F S2048x2048 .f32 := broadcastInDim S2048x2048 ![] bcast_S_S2048x2048 main_cst_0
  let main_v6 : IVec S2048x2048 1 := cmpf .olt main_v4 main_v5
  let main_c_1 : IVec S_ 1 := constantI S_ 1 1#1
  let main_v7 : IVec S_ 1 := (fun x v => Host.reduce IntOp.andi x v reducesTo_S2048x2048_S_d0_1 h_S_) main_v6 main_c_1
  let main_v8 : IVec S_ 1 := andi main_v3 main_v7
  let main_v9 : FVec F S4096 .f32 := Host.absf main_arg2
  let main_cst_2 : FVec F S_ .f32 := constant S_ .f32 0x7F800000#32
  let main_v10 : FVec F S4096 .f32 := broadcastInDim S4096 ![] bcast_S_S4096 main_cst_2
  let main_v11 : IVec S4096 1 := cmpf .olt main_v9 main_v10
  let main_c_3 : IVec S_ 1 := constantI S_ 1 1#1
  let main_v12 : IVec S_ 1 := (fun x v => Host.reduce IntOp.andi x v reducesTo_S4096_S_d0 h_S_) main_v11 main_c_3
  let main_v13 : IVec S_ 1 := andi main_v8 main_v12
  main_v13
-- ==== Kernel.lean ====
abbrev S4x2048x4096 : Shape := ⟨3, ![4, 2048, 4096]⟩
abbrev S2048x2048 : Shape := ⟨2, ![2048, 2048]⟩
abbrev S4096 : Shape := ⟨1, ![4096]⟩
abbrev S2048 : Shape := ⟨1, ![2048]⟩
abbrev S_ : Shape := ⟨0, ![]⟩
abbrev S2048x1 : Shape := ⟨2, ![2048, 1]⟩
abbrev S1 : Shape := ⟨1, ![1]⟩
abbrev S1x1 : Shape := ⟨2, ![1, 1]⟩
abbrev S4x2048x2048 : Shape := ⟨3, ![4, 2048, 2048]⟩
abbrev S8192x2048 : Shape := ⟨2, ![8192, 2048]⟩
abbrev S2048x4096 : Shape := ⟨2, ![2048, 4096]⟩
abbrev S1x4096 : Shape := ⟨2, ![1, 4096]⟩
abbrev S8192x4096 : Shape := ⟨2, ![8192, 4096]⟩
abbrev S256x2048 : Shape := ⟨2, ![256, 2048]⟩
abbrev S256x4096 : Shape := ⟨2, ![256, 4096]⟩

abbrev nBuf : Space → Nat
  | .hbm => 49
  | .vmem => 6
  | .smem => 0
  | _ => 0

abbrev bufTy : (tb : Table) → Fin (tcTables nBuf tb) → BufTy
  | .hbm, ⟨0, _⟩ => ⟨S4x2048x4096, .f32⟩
  | .hbm, ⟨1, _⟩ => ⟨S2048x2048, .f32⟩
  | .hbm, ⟨2, _⟩ => ⟨S4096, .f32⟩
  | .hbm, ⟨3, _⟩ => ⟨S2048, .i32⟩
  | .hbm, ⟨4, _⟩ => ⟨S2048, .i32⟩
  | .hbm, ⟨5, _⟩ => ⟨S_, .i32⟩
  | .hbm, ⟨6, _⟩ => ⟨S2048, .i32⟩
  | .hbm, ⟨7, _⟩ => ⟨S2048, .i1⟩
  | .hbm, ⟨8, _⟩ => ⟨S_, .i32⟩
  | .hbm, ⟨9, _⟩ => ⟨S2048, .i32⟩
  | .hbm, ⟨10, _⟩ => ⟨S2048, .i32⟩
  | .hbm, ⟨11, _⟩ => ⟨S2048, .i32⟩
  | .hbm, ⟨12, _⟩ => ⟨S2048x1, .i32⟩
  | .hbm, ⟨13, _⟩ => ⟨S1, .i32⟩
  | .hbm, ⟨14, _⟩ => ⟨S_, .i32⟩
  | .hbm, ⟨15, _⟩ => ⟨S2048x1, .i32⟩
  | .hbm, ⟨16, _⟩ => ⟨S2048x1, .i1⟩
  | .hbm, ⟨17, _⟩ => ⟨S1x1, .i32⟩
  | .hbm, ⟨18, _⟩ => ⟨S2048x1, .i32⟩
  | .hbm, ⟨19, _⟩ => ⟨S2048x1, .i1⟩
  | .hbm, ⟨20, _⟩ => ⟨S2048x1, .i1⟩
  | .hbm, ⟨21, _⟩ => ⟨S_, .i1⟩
  | .hbm, ⟨22, _⟩ => ⟨S2048, .i1⟩
  | .hbm, ⟨23, _⟩ => ⟨S4x2048x2048, .f32⟩
  | .hbm, ⟨24, _⟩ => ⟨S4x2048x2048, .i1⟩
  | .hbm, ⟨25, _⟩ => ⟨S_, .f32⟩
  | .hbm, ⟨26, _⟩ => ⟨S4x2048x2048, .f32⟩
  | .hbm, ⟨27, _⟩ => ⟨S4x2048x2048, .f32⟩
  | .hbm, ⟨28, _⟩ => ⟨S4x2048x2048, .bf16⟩
  | .hbm, ⟨29, _⟩ => ⟨S8192x2048, .bf16⟩
  | .hbm, ⟨30, _⟩ => ⟨S_, .f32⟩
  | .hbm, ⟨31, _⟩ => ⟨S2048x2048, .f32⟩
  | .hbm, ⟨32, _⟩ => ⟨S2048x2048, .f32⟩
  | .hbm, ⟨33, _⟩ => ⟨S2048x2048, .f32⟩
  | .hbm, ⟨34, _⟩ => ⟨S_, .f32⟩
  | .hbm, ⟨35, _⟩ => ⟨S2048x4096, .f32⟩
  | .hbm, ⟨36, _⟩ => ⟨S_, .i32⟩
  | .hbm, ⟨37, _⟩ => ⟨S2048, .i32⟩
  | .hbm, ⟨38, _⟩ => ⟨S2048, .i1⟩
  | .hbm, ⟨39, _⟩ => ⟨S_, .i32⟩
  | .hbm, ⟨40, _⟩ => ⟨S2048, .i32⟩
  | .hbm, ⟨41, _⟩ => ⟨S2048, .i32⟩
  | .hbm, ⟨42, _⟩ => ⟨S2048, .i32⟩
  | .hbm, ⟨43, _⟩ => ⟨S2048x1, .i32⟩
  | .hbm, ⟨44, _⟩ => ⟨S2048x4096, .f32⟩
  | .hbm, ⟨45, _⟩ => ⟨S2048x4096, .bf16⟩
  | .hbm, ⟨46, _⟩ => ⟨S1x4096, .f32⟩
  | .hbm, ⟨47, _⟩ => ⟨S8192x4096, .f32⟩
  | .hbm, ⟨48, _⟩ => ⟨S4x2048x4096, .f32⟩
  | .local _ .vmem, ⟨0, _⟩ => ⟨S256x2048, .bf16⟩
  | .local _ .vmem, ⟨1, _⟩ => ⟨S256x2048, .bf16⟩
  | .local _ .vmem, ⟨2, _⟩ => ⟨S2048x4096, .bf16⟩
  | .local _ .vmem, ⟨3, _⟩ => ⟨S1x4096, .f32⟩
  | .local _ .vmem, ⟨4, _⟩ => ⟨S256x4096, .f32⟩
  | .local _ .vmem, ⟨5, _⟩ => ⟨S256x4096, .f32⟩
  | _, _ => ⟨S4x2048x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_call0_c : Ref sig .tc := ⟨.hbm, 5, rfl⟩
abbrev main_call0_v0 : Ref sig .tc := ⟨.hbm, 6, rfl⟩
abbrev main_call0_v1 : Ref sig .tc := ⟨.hbm, 7, rfl⟩
abbrev main_call0_c_0 : Ref sig .tc := ⟨.hbm, 8, rfl⟩
abbrev main_call0_v2 : Ref sig .tc := ⟨.hbm, 9, rfl⟩
abbrev main_call0_v3 : Ref sig .tc := ⟨.hbm, 10, rfl⟩
abbrev main_call0_v4 : Ref sig .tc := ⟨.hbm, 11, rfl⟩
abbrev main_call0_v5 : Ref sig .tc := ⟨.hbm, 12, rfl⟩
abbrev main_call0_c_1 : Ref sig .tc := ⟨.hbm, 13, rfl⟩
abbrev main_call0_c_2 : Ref sig .tc := ⟨.hbm, 14, rfl⟩
abbrev main_call0_v6 : Ref sig .tc := ⟨.hbm, 15, rfl⟩
abbrev main_call0_v7 : Ref sig .tc := ⟨.hbm, 16, rfl⟩
abbrev main_call0_v8 : Ref sig .tc := ⟨.hbm, 17, rfl⟩
abbrev main_call0_v9 : Ref sig .tc := ⟨.hbm, 18, rfl⟩
abbrev main_call0_v10 : Ref sig .tc := ⟨.hbm, 19, rfl⟩
abbrev main_call0_v11 : Ref sig .tc := ⟨.hbm, 20, rfl⟩
abbrev main_call0_c_3 : Ref sig .tc := ⟨.hbm, 21, rfl⟩
abbrev main_call0_v12 : Ref sig .tc := ⟨.hbm, 22, rfl⟩
abbrev main_call0_v13 : Ref sig .tc := ⟨.hbm, 23, rfl⟩
abbrev main_call0_v14 : Ref sig .tc := ⟨.hbm, 24, rfl⟩
abbrev main_call0_cst : Ref sig .tc := ⟨.hbm, 25, rfl⟩
abbrev main_call0_v15 : Ref sig .tc := ⟨.hbm, 26, rfl⟩
abbrev main_v0 : Ref sig .tc := ⟨.hbm, 27, rfl⟩
abbrev main_v1 : Ref sig .tc := ⟨.hbm, 28, rfl⟩
abbrev main_v2 : Ref sig .tc := ⟨.hbm, 29, rfl⟩
abbrev main_cst : Ref sig .tc := ⟨.hbm, 30, rfl⟩
abbrev main_v3 : Ref sig .tc := ⟨.hbm, 31, rfl⟩
abbrev main_v4 : Ref sig .tc := ⟨.hbm, 32, rfl⟩
abbrev main_v5 : Ref sig .tc := ⟨.hbm, 33, rfl⟩
abbrev main_cst_0 : Ref sig .tc := ⟨.hbm, 34, rfl⟩
abbrev main_v6 : Ref sig .tc := ⟨.hbm, 35, rfl⟩
abbrev main_c : Ref sig .tc := ⟨.hbm, 36, rfl⟩
abbrev main_v7 : Ref sig .tc := ⟨.hbm, 37, rfl⟩
abbrev main_v8 : Ref sig .tc := ⟨.hbm, 38, rfl⟩
abbrev main_c_1 : Ref sig .tc := ⟨.hbm, 39, rfl⟩
abbrev main_v9 : Ref sig .tc := ⟨.hbm, 40, rfl⟩
abbrev main_v10 : Ref sig .tc := ⟨.hbm, 41, rfl⟩
abbrev main_v11 : Ref sig .tc := ⟨.hbm, 42, rfl⟩
abbrev main_v12 : Ref sig .tc := ⟨.hbm, 43, rfl⟩
abbrev main_v13 : Ref sig .tc := ⟨.hbm, 44, rfl⟩
abbrev main_v14 : Ref sig .tc := ⟨.hbm, 45, rfl⟩
abbrev main_v15 : Ref sig .tc := ⟨.hbm, 46, rfl⟩
abbrev main_v16 : Ref sig .tc := ⟨.hbm, 47, rfl⟩
abbrev main_v17 : Ref sig .tc := ⟨.hbm, 48, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S2048x4096 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x4096 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S256x4096 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

class Facts₀ : Prop where
  bcast_S_S2048 : S_.BroadcastsInDim S2048 (![] : Fin 0 → Fin S2048.rank)
  bcast_S2048_S2048x1_0 : S2048.BroadcastsInDim S2048x1 (![0] : Fin 1 → Fin S2048x1.rank)
  bcast_S_S2048x1 : S_.BroadcastsInDim S2048x1 (![] : Fin 0 → Fin S2048x1.rank)
  bcast_S1_S1x1_1 : S1.BroadcastsInDim S1x1 (![1] : Fin 1 → Fin S1x1.rank)
  bcast_S1x1_S2048x1_0_1 : S1x1.BroadcastsInDim S2048x1 (![0, 1] : Fin 2 → Fin S2048x1.rank)
  reducesTo_S2048x1_S2048_d1 : S2048x1.ReducesTo [1] S2048
  h_S_ : 0 < S_.numel
  bcast_S2048_S4x2048x2048_2 : S2048.BroadcastsInDim S4x2048x2048 (![2] : Fin 1 → Fin S4x2048x2048.rank)
  bcast_S_S4x2048x2048 : S_.BroadcastsInDim S4x2048x2048 (![] : Fin 0 → Fin S4x2048x2048.rank)
  bitsLt_bf16_f32 : FTy.bits .bf16 < FTy.bits .f32
  shapeCasts_S4x2048x2048_S8192x2048 : S4x2048x2048.ShapeCasts S8192x2048
  bcast_S_S2048x2048 : S_.BroadcastsInDim S2048x2048 (![] : Fin 0 → Fin S2048x2048.rank)
  transposes_S2048x2048_S2048x2048_1_0 : S2048x2048.Transposes [1, 0] S2048x2048
  bcast_S_S2048x4096 : S_.BroadcastsInDim S2048x4096 (![] : Fin 0 → Fin S2048x4096.rank)
  shapeCasts_S4096_S1x4096 : S4096.ShapeCasts S1x4096
  inb_S256x2048_S256x2048_0_0 : ∀ a, (![0, 0] : Fin 2 → Nat) a + S256x2048.size a ≤ S256x2048.size a
  h_S256x2048 : 0 < S256x2048.numel
  shapeCasts_S256x2048_S256x2048 : S256x2048.ShapeCasts S256x2048
  inb_S2048x4096_S2048x4096_0_0 : ∀ a, (![0, 0] : Fin 2 → Nat) a + S2048x4096.size a ≤ S2048x4096.size a
  h_S2048x4096 : 0 < S2048x4096.numel
  shapeCasts_S2048x4096_S2048x4096 : S2048x4096.ShapeCasts S2048x4096
  inb_S1x4096_S1x4096_0_0 : ∀ a, (![0, 0] : Fin 2 → Nat) a + S1x4096.size a ≤ S1x4096.size a
  h_S1x4096 : 0 < S1x4096.numel
  shapeCasts_S1x4096_S1x4096 : S1x4096.ShapeCasts S1x4096
  broadcasts_S1x4096_S256x4096 : S1x4096.Broadcasts S256x4096
  inb_S256x4096_S256x4096_0_0 : ∀ a, (![0, 0] : Fin 2 → Nat) a + S256x4096.size a ≤ S256x4096.size a
  h_S256x4096 : 0 < S256x4096.numel
  shapeCasts_S8192x4096_S4x2048x4096 : S8192x4096.ShapeCasts S4x2048x4096
  gather_S4x2048x4096_S2048x1_S4x2048x2048_01_2_n_n_2_1_420481_wf : GatherDims.WF S4x2048x4096 S2048x1 S4x2048x2048 [0, 1] [2] [] [2] [] 1 ![4, 2048, 1]
  scatter_S2048x4096_S2048x1_S2048x2048_0_1_1_1_wf : ScatterDims.WF S2048x4096 S2048x1 S2048x2048 [0] [1] [1] 1
  dot_S256x2048_S2048x4096_S256x4096_1_0_0_1_n_n_wf : DotDims.WF S256x2048 S2048x4096 S256x4096 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S256x2048.size a ≤ S8192x2048.size a
  hwx0_0 : ∀ i : grid0.Coords, EltTy.bits .bf16 = 32 ∨ (Rect.block (s := S8192x2048) S256x2048.size (cc0_transform_0 i) (hinb0_0 i)).WholeWords (EltTy.packing .bf16)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S2048x4096.size a ≤ S2048x4096.size a
  hwx0_1 : ∀ i : grid0.Coords, EltTy.bits .bf16 = 32 ∨ (Rect.block (s := S2048x4096) S2048x4096.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x4096.size a ≤ S1x4096.size a
  hwx0_2 : ∀ i : grid0.Coords, EltTy.bits .f32 = 32 ∨ (Rect.block (s := S1x4096) S1x4096.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S256x4096.size a ≤ S8192x4096.size a
  hwx0_3 : ∀ i : grid0.Coords, EltTy.bits .f32 = 32 ∨ (Rect.block (s := S8192x4096) S256x4096.size (cc0_transform_3 i) (hinb0_3 i)).WholeWords (EltTy.packing .f32)

variable [Facts₀]

def gather_S4x2048x4096_S2048x1_S4x2048x2048_01_2_n_n_2_1_420481 : GatherDims S4x2048x4096 S2048x1 S4x2048x2048 where
  offsetDims := [0, 1]
  collapsedSliceDims := [2]
  operandBatchingDims := []
  startIndicesBatchingDims := []
  startIndexMap := [2]
  indexVectorDim := 1
  sliceSizes := ![4, 2048, 1]
  wf := gather_S4x2048x4096_S2048x1_S4x2048x2048_01_2_n_n_2_1_420481_wf
def scatter_S2048x4096_S2048x1_S2048x2048_0_1_1_1 : ScatterDims S2048x4096 S2048x1 S2048x2048 where
  updateWindowDims := [0]
  insertedWindowDims := [1]
  scatterDimsToOperandDims := [1]
  indexVectorDim := 1
  wf := scatter_S2048x4096_S2048x1_S2048x2048_0_1_1_1_wf
def dot_S256x2048_S2048x4096_S256x4096_1_0_0_1_n_n : DotDims S256x2048 S2048x4096 S256x4096 where
  lhsContracting := [1]
  rhsContracting := [0]
  lhsNonContracting := [0]
  rhsNonContracting := [1]
  lhsBatch := []
  rhsBatch := []
  wf := dot_S256x2048_S2048x4096_S256x4096_1_0_0_1_n_n_wf

abbrev win0_0 : Pipeline.Window sig grid0 :=
  Pipeline.Window.ofSpec (Memref.whole main_v2) S256x2048.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v14) S2048x4096.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v15) S1x4096.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v16) S256x4096.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S4x2048x4096 : Shape := ⟨3, ![4, 2048, 4096]⟩
abbrev S2048x2048 : Shape := ⟨2, ![2048, 2048]⟩
abbrev S4096 : Shape := ⟨1, ![4096]⟩
abbrev S2048 : Shape := ⟨1, ![2048]⟩
abbrev S_ : Shape := ⟨0, ![]⟩
abbrev S2048x1 : Shape := ⟨2, ![2048, 1]⟩
abbrev S1 : Shape := ⟨1, ![1]⟩
abbrev S1x1 : Shape := ⟨2, ![1, 1]⟩
abbrev S4x2048x2048 : Shape := ⟨3, ![4, 2048, 2048]⟩
abbrev S1x1x4096 : Shape := ⟨3, ![1, 1, 4096]⟩

abbrev nBuf : Space → Nat
  | .hbm => 46
  | .vmem => 0
  | .smem => 0
  | _ => 0

abbrev bufTy : (tb : Table) → Fin (tcTables nBuf tb) → BufTy
  | .hbm, ⟨0, _⟩ => ⟨S4x2048x4096, .f32⟩
  | .hbm, ⟨1, _⟩ => ⟨S2048x2048, .f32⟩
  | .hbm, ⟨2, _⟩ => ⟨S4096, .f32⟩
  | .hbm, ⟨3, _⟩ => ⟨S2048, .i32⟩
  | .hbm, ⟨4, _⟩ => ⟨S2048, .i32⟩
  | .hbm, ⟨5, _⟩ => ⟨S_, .i32⟩
  | .hbm, ⟨6, _⟩ => ⟨S2048, .i32⟩
  | .hbm, ⟨7, _⟩ => ⟨S2048, .i1⟩
  | .hbm, ⟨8, _⟩ => ⟨S_, .i32⟩
  | .hbm, ⟨9, _⟩ => ⟨S2048, .i32⟩
  | .hbm, ⟨10, _⟩ => ⟨S2048, .i32⟩
  | .hbm, ⟨11, _⟩ => ⟨S2048, .i32⟩
  | .hbm, ⟨12, _⟩ => ⟨S2048x1, .i32⟩
  | .hbm, ⟨13, _⟩ => ⟨S1, .i32⟩
  | .hbm, ⟨14, _⟩ => ⟨S_, .i32⟩
  | .hbm, ⟨15, _⟩ => ⟨S2048x1, .i32⟩
  | .hbm, ⟨16, _⟩ => ⟨S2048x1, .i1⟩
  | .hbm, ⟨17, _⟩ => ⟨S1x1, .i32⟩
  | .hbm, ⟨18, _⟩ => ⟨S2048x1, .i32⟩
  | .hbm, ⟨19, _⟩ => ⟨S2048x1, .i1⟩
  | .hbm, ⟨20, _⟩ => ⟨S2048x1, .i1⟩
  | .hbm, ⟨21, _⟩ => ⟨S_, .i1⟩
  | .hbm, ⟨22, _⟩ => ⟨S2048, .i1⟩
  | .hbm, ⟨23, _⟩ => ⟨S4x2048x2048, .f32⟩
  | .hbm, ⟨24, _⟩ => ⟨S4x2048x2048, .i1⟩
  | .hbm, ⟨25, _⟩ => ⟨S_, .f32⟩
  | .hbm, ⟨26, _⟩ => ⟨S4x2048x2048, .f32⟩
  | .hbm, ⟨27, _⟩ => ⟨S4x2048x2048, .f32⟩
  | .hbm, ⟨28, _⟩ => ⟨S_, .f32⟩
  | .hbm, ⟨29, _⟩ => ⟨S2048x2048, .f32⟩
  | .hbm, ⟨30, _⟩ => ⟨S2048x2048, .f32⟩
  | .hbm, ⟨31, _⟩ => ⟨S4x2048x2048, .f32⟩
  | .hbm, ⟨32, _⟩ => ⟨S_, .f32⟩
  | .hbm, ⟨33, _⟩ => ⟨S4x2048x4096, .f32⟩
  | .hbm, ⟨34, _⟩ => ⟨S_, .i32⟩
  | .hbm, ⟨35, _⟩ => ⟨S2048, .i32⟩
  | .hbm, ⟨36, _⟩ => ⟨S2048, .i1⟩
  | .hbm, ⟨37, _⟩ => ⟨S_, .i32⟩
  | .hbm, ⟨38, _⟩ => ⟨S2048, .i32⟩
  | .hbm, ⟨39, _⟩ => ⟨S2048, .i32⟩
  | .hbm, ⟨40, _⟩ => ⟨S2048, .i32⟩
  | .hbm, ⟨41, _⟩ => ⟨S2048x1, .i32⟩
  | .hbm, ⟨42, _⟩ => ⟨S4x2048x4096, .f32⟩
  | .hbm, ⟨43, _⟩ => ⟨S1x1x4096, .f32⟩
  | .hbm, ⟨44, _⟩ => ⟨S4x2048x4096, .f32⟩
  | .hbm, ⟨45, _⟩ => ⟨S4x2048x4096, .f32⟩
  | _, _ => ⟨S4x2048x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_call0_c : Ref sig .tc := ⟨.hbm, 5, rfl⟩
abbrev main_call0_v0 : Ref sig .tc := ⟨.hbm, 6, rfl⟩
abbrev main_call0_v1 : Ref sig .tc := ⟨.hbm, 7, rfl⟩
abbrev main_call0_c_0 : Ref sig .tc := ⟨.hbm, 8, rfl⟩
abbrev main_call0_v2 : Ref sig .tc := ⟨.hbm, 9, rfl⟩
abbrev main_call0_v3 : Ref sig .tc := ⟨.hbm, 10, rfl⟩
abbrev main_call0_v4 : Ref sig .tc := ⟨.hbm, 11, rfl⟩
abbrev main_call0_v5 : Ref sig .tc := ⟨.hbm, 12, rfl⟩
abbrev main_call0_c_1 : Ref sig .tc := ⟨.hbm, 13, rfl⟩
abbrev main_call0_c_2 : Ref sig .tc := ⟨.hbm, 14, rfl⟩
abbrev main_call0_v6 : Ref sig .tc := ⟨.hbm, 15, rfl⟩
abbrev main_call0_v7 : Ref sig .tc := ⟨.hbm, 16, rfl⟩
abbrev main_call0_v8 : Ref sig .tc := ⟨.hbm, 17, rfl⟩
abbrev main_call0_v9 : Ref sig .tc := ⟨.hbm, 18, rfl⟩
abbrev main_call0_v10 : Ref sig .tc := ⟨.hbm, 19, rfl⟩
abbrev main_call0_v11 : Ref sig .tc := ⟨.hbm, 20, rfl⟩
abbrev main_call0_c_3 : Ref sig .tc := ⟨.hbm, 21, rfl⟩
abbrev main_call0_v12 : Ref sig .tc := ⟨.hbm, 22, rfl⟩
abbrev main_call0_v13 : Ref sig .tc := ⟨.hbm, 23, rfl⟩
abbrev main_call0_v14 : Ref sig .tc := ⟨.hbm, 24, rfl⟩
abbrev main_call0_cst : Ref sig .tc := ⟨.hbm, 25, rfl⟩
abbrev main_call0_v15 : Ref sig .tc := ⟨.hbm, 26, rfl⟩
abbrev main_v0 : Ref sig .tc := ⟨.hbm, 27, rfl⟩
abbrev main_cst : Ref sig .tc := ⟨.hbm, 28, rfl⟩
abbrev main_v1 : Ref sig .tc := ⟨.hbm, 29, rfl⟩
abbrev main_v2 : Ref sig .tc := ⟨.hbm, 30, rfl⟩
abbrev main_v3 : Ref sig .tc := ⟨.hbm, 31, rfl⟩
abbrev main_cst_0 : Ref sig .tc := ⟨.hbm, 32, rfl⟩
abbrev main_v4 : Ref sig .tc := ⟨.hbm, 33, rfl⟩
abbrev main_c : Ref sig .tc := ⟨.hbm, 34, rfl⟩
abbrev main_v5 : Ref sig .tc := ⟨.hbm, 35, rfl⟩
abbrev main_v6 : Ref sig .tc := ⟨.hbm, 36, rfl⟩
abbrev main_c_1 : Ref sig .tc := ⟨.hbm, 37, rfl⟩
abbrev main_v7 : Ref sig .tc := ⟨.hbm, 38, rfl⟩
abbrev main_v8 : Ref sig .tc := ⟨.hbm, 39, rfl⟩
abbrev main_v9 : Ref sig .tc := ⟨.hbm, 40, rfl⟩
abbrev main_v10 : Ref sig .tc := ⟨.hbm, 41, rfl⟩
abbrev main_v11 : Ref sig .tc := ⟨.hbm, 42, rfl⟩
abbrev main_v12 : Ref sig .tc := ⟨.hbm, 43, rfl⟩
abbrev main_v13 : Ref sig .tc := ⟨.hbm, 44, rfl⟩
abbrev main_v14 : Ref sig .tc := ⟨.hbm, 45, rfl⟩

abbrev nD : Nat := 1
abbrev τ : Topo := Topo.v7x

variable {F : FTy → Type} [FloatOps F]

class Facts₀ : Prop where
  bcast_S_S2048 : S_.BroadcastsInDim S2048 (![] : Fin 0 → Fin S2048.rank)
  bcast_S2048_S2048x1_0 : S2048.BroadcastsInDim S2048x1 (![0] : Fin 1 → Fin S2048x1.rank)
  bcast_S_S2048x1 : S_.BroadcastsInDim S2048x1 (![] : Fin 0 → Fin S2048x1.rank)
  bcast_S1_S1x1_1 : S1.BroadcastsInDim S1x1 (![1] : Fin 1 → Fin S1x1.rank)
  bcast_S1x1_S2048x1_0_1 : S1x1.BroadcastsInDim S2048x1 (![0, 1] : Fin 2 → Fin S2048x1.rank)
  reducesTo_S2048x1_S2048_d1 : S2048x1.ReducesTo [1] S2048
  h_S_ : 0 < S_.numel
  bcast_S2048_S4x2048x2048_2 : S2048.BroadcastsInDim S4x2048x2048 (![2] : Fin 1 → Fin S4x2048x2048.rank)
  bcast_S_S4x2048x2048 : S_.BroadcastsInDim S4x2048x2048 (![] : Fin 0 → Fin S4x2048x2048.rank)
  bcast_S_S2048x2048 : S_.BroadcastsInDim S2048x2048 (![] : Fin 0 → Fin S2048x2048.rank)
  bcast_S_S4x2048x4096 : S_.BroadcastsInDim S4x2048x4096 (![] : Fin 0 → Fin S4x2048x4096.rank)
  bcast_S4096_S1x1x4096_2 : S4096.BroadcastsInDim S1x1x4096 (![2] : Fin 1 → Fin S1x1x4096.rank)
  bcast_S1x1x4096_S4x2048x4096_0_1_2 : S1x1x4096.BroadcastsInDim S4x2048x4096 (![0, 1, 2] : Fin 3 → Fin S4x2048x4096.rank)
  gather_S4x2048x4096_S2048x1_S4x2048x2048_01_2_n_n_2_1_420481_wf : GatherDims.WF S4x2048x4096 S2048x1 S4x2048x2048 [0, 1] [2] [] [2] [] 1 ![4, 2048, 1]
  dot_S4x2048x2048_S2048x2048_S4x2048x2048_2_1_01_0_n_n_wf : DotDims.WF S4x2048x2048 S2048x2048 S4x2048x2048 [2] [1] [0, 1] [0] [] []
  scatter_S4x2048x4096_S2048x1_S4x2048x2048_01_2_2_1_wf : ScatterDims.WF S4x2048x4096 S2048x1 S4x2048x2048 [0, 1] [2] [2] 1

variable [Facts₀]

def gather_S4x2048x4096_S2048x1_S4x2048x2048_01_2_n_n_2_1_420481 : GatherDims S4x2048x4096 S2048x1 S4x2048x2048 where
  offsetDims := [0, 1]
  collapsedSliceDims := [2]
  operandBatchingDims := []
  startIndicesBatchingDims := []
  startIndexMap := [2]
  indexVectorDim := 1
  sliceSizes := ![4, 2048, 1]
  wf := gather_S4x2048x4096_S2048x1_S4x2048x2048_01_2_n_n_2_1_420481_wf
def dot_S4x2048x2048_S2048x2048_S4x2048x2048_2_1_01_0_n_n : DotDims S4x2048x2048 S2048x2048 S4x2048x2048 where
  lhsContracting := [2]
  rhsContracting := [1]
  lhsNonContracting := [0, 1]
  rhsNonContracting := [0]
  lhsBatch := []
  rhsBatch := []
  wf := dot_S4x2048x2048_S2048x2048_S4x2048x2048_2_1_01_0_n_n_wf
def scatter_S4x2048x4096_S2048x1_S4x2048x2048_01_2_2_1 : ScatterDims S4x2048x4096 S2048x1 S4x2048x2048 where
  updateWindowDims := [0, 1]
  insertedWindowDims := [2]
  scatterDimsToOperandDims := [2]
  indexVectorDim := 1
  wf := scatter_S4x2048x4096_S2048x1_S4x2048x2048_01_2_2_1_wf

class Facts : Prop extends Facts₀ where

variable [Facts]
-- ==== Proof.HostShared.lean ====
/-
  The two host computations both programs start with, each as one function of its argument.

  `chanIdx r`: a vector of channel numbers with the negative ones counted from the end (4096 added), laid out as a
  column — the table both scatters read.  `takeCols x cols`: the gather of the channels `cols` out of the last axis
  of `x` (start indices `chanIdx cols`, clamped by the gather), with a fill value wherever the channel number,
  after counting from the end, is still outside 0 … 4095.  Neither is opened by the proof: both programs apply them
  to the same arguments, and the rest of the proof only needs that they are the same functions.
-/
import Idealize.ShloMosaic.PureOps

noncomputable section

namespace Cert.Shared

open Idealize.ShloMosaic

variable {F : FTy → Type} [FloatOps F]

abbrev S0 : Shape := ⟨0, ![]⟩
abbrev S1 : Shape := ⟨1, ![1]⟩
abbrev S11 : Shape := ⟨2, ![1, 1]⟩
/-- One entry per compact channel. -/
abbrev Sn : Shape := ⟨1, ![2048]⟩
/-- The same as a column. -/
abbrev Sn1 : Shape := ⟨2, ![2048, 1]⟩
/-- The activations, 4 × 2048 × 4096. -/
abbrev Sx : Shape := ⟨3, ![4, 2048, 4096]⟩
/-- The gathered activations, 4 × 2048 × 2048. -/
abbrev Sc : Shape := ⟨3, ![4, 2048, 2048]⟩

theorem b0n : S0.BroadcastsInDim Sn (![] : Fin 0 → Fin Sn.rank) := by decide
theorem bnn1 : Sn.BroadcastsInDim Sn1 (![0] : Fin 1 → Fin Sn1.rank) := by decide
theorem b0n1 : S0.BroadcastsInDim Sn1 (![] : Fin 0 → Fin Sn1.rank) := by decide
theorem b1s : S1.BroadcastsInDim S11 (![1] : Fin 1 → Fin S11.rank) := by decide
theorem bsn1 : S11.BroadcastsInDim Sn1 (![0, 1] : Fin 2 → Fin Sn1.rank) := by decide
theorem rn1 : Sn1.ReducesTo [1] Sn := by decide
theorem h0 : 0 < S0.numel := by decide
theorem bnc : Sn.BroadcastsInDim Sc (![2] : Fin 1 → Fin Sc.rank) := by decide
theorem b0c : S0.BroadcastsInDim Sc (![] : Fin 0 → Fin Sc.rank) := by decide

/-- Channel numbers, the negative ones counted from the end, as a column. -/
def chanIdx (r : IVec Sn 32) : IVec Sn1 32 :=
  broadcastInDim Sn1 ![0] bnn1
    (select (cmpi .slt r (broadcastInDim Sn ![] b0n (constantI S0 32 0#32)))
      (addi r (broadcastInDim Sn ![] b0n (constantI S0 32 4096#32))) r)

/-- The gather's dimension numbers: whole 4 × 2048 slabs, one channel each. -/
def takeDims3 : GatherDims Sx Sn1 Sc :=
  { offsetDims := [0, 1], collapsedSliceDims := [2], operandBatchingDims := [], startIndicesBatchingDims := [],
    startIndexMap := [2], indexVectorDim := 1, sliceSizes := ![4, 2048, 1] }

/-- The channels `cols` of `x`, a fill value where a channel number is out of range. -/
def takeCols (x : FVec F Sx .f32) (cols : IVec Sn 32) : FVec F Sc .f32 :=
  select
    (broadcastInDim Sc ![2] bnc
      (Host.reduce IntOp.andi
        (andi (cmpi .sge (chanIdx cols) (broadcastInDim Sn1 ![] b0n1 (constantI S0 32 0#32)))
          (cmpi .sle (chanIdx cols)
            (broadcastInDim Sn1 ![0, 1] bsn1 (broadcastInDim S11 ![1] b1s (constantI S1 32 4095#32)))))
        (constantI S0 1 1#1) rn1 h0))
    (Host.gather takeDims3 x (chanIdx cols))
    (broadcastInDim Sc ![] b0c (constant S0 .f32 0x7FC00000#32))

end Cert.Shared

end
-- ==== Proof.KernelOut.lean ====
/-
  The kernel's result as one function of the five arguments, before any statement about its run.

  The host gathers the channels `cols` of the activations and lays the 4 × 2048 rows out as 8192 rows (`xflat`);
  it scales the compact weight by 0.05, transposes it, and writes its columns at the channels the table of `rows`
  names into a 2048 × 4096 array of zeros (`wfull`); the bias becomes one row (`bias2`).  Entry (r, o) of the
  product with the bias added is the sum over k of xflat (r, k) · wfull (k, o), plus bias2 (0, o) (`entry`); the
  8192 rows are laid out again as 4 × 2048 (`out`).
-/
import proofs.«416049_j77438260346927_3_alg».proof.Proof.Gen.KernelIdeal
import proofs.«416049_j77438260346927_3_alg».proof.Proof.HostShared
import Idealize.ShloMosaic.Lib.ValueIdx

noncomputable section

open Idealize.ShloMosaic Idealize.ShloMosaic.ValueIdx

namespace Cert.KernelIdeal.Hand

open Cert.KernelIdeal Cert.KernelIdeal.Gen

/-- Entry (r, o): row r of the first factor against column o of the second, plus the bias row's entry o. -/
def entry (A : S8192x2048.Idx → EReal) (W : S2048x4096.Idx → EReal) (b2 : S1x4096.Idx → EReal) (r : Fin 8192) (o : Fin 4096) : EReal :=
  (∑ k : Fin 2048, A (ix2 r k) * W (ix2 k o)) + b2 (ix2 0 o)

/-- The whole 8192 × 4096 array of them. -/
def G (A : S8192x2048.Idx → EReal) (W : S2048x4096.Idx → EReal) (b2 : S1x4096.Idx → EReal) : S8192x4096.Idx → EReal :=
  fun i => entry A W b2 ⟨(i 0).val, idx2_lt0 i⟩ ⟨(i 1).val, idx2_lt1 i⟩

theorem G_apply (A : S8192x2048.Idx → EReal) (W : S2048x4096.Idx → EReal) (b2 : S1x4096.Idx → EReal) (r : Fin 8192) (o : Fin 4096) :
    G A W b2 (ix2 r o) = entry A W b2 r o := rfl

/-- The gathered activations, 8192 rows of 2048 channels. -/
def xflat (x : FVec Ideal S4x2048x4096 .f32) (cols : IVec S2048 32) : FVec Ideal S8192x2048 .bf16 :=
  shapeCast S8192x2048 (truncf .bf16 (Cert.Shared.takeCols x cols) bitsLt_bf16_f32) shapeCasts_S4x2048x2048_S8192x2048

/-- The scaled weight transposed, its columns at the channels the table names, zero elsewhere. -/
def wfull (cw : FVec Ideal S2048x2048 .f32) (rows : IVec S2048 32) : FVec Ideal S2048x4096 .bf16 :=
  truncf .bf16
    (Host.scatter scatter_S2048x4096_S2048x1_S2048x2048_0_1_1_1 (fun _ b => b)
      (broadcastInDim S2048x4096 ![] bcast_S_S2048x4096 (constant S_ .f32 0x00000000#32))
      (Cert.Shared.chanIdx rows)
      (transpose S2048x2048 [1, 0] (mulf cw (broadcastInDim S2048x2048 ![] bcast_S_S2048x2048 (constant S_ .f32 0x3D4CCCCD#32)))
        transposes_S2048x2048_S2048x2048_1_0))
    bitsLt_bf16_f32

/-- The bias as one row. -/
def bias2 (bias : FVec Ideal S4096 .f32) : FVec Ideal S1x4096 .f32 := shapeCast S1x4096 bias shapeCasts_S4096_S1x4096

/-- The result. -/
def out (x : FVec Ideal S4x2048x4096 .f32) (cw : FVec Ideal S2048x2048 .f32) (bias : FVec Ideal S4096 .f32) (rows cols : IVec S2048 32) :
    FVec Ideal S4x2048x4096 .f32 :=
  shapeCast S4x2048x4096 (G (xflat x cols) (wfull cw rows) (bias2 bias)) shapeCasts_S8192x4096_S4x2048x4096

end Cert.KernelIdeal.Hand

end
-- ==== Proof.KernelArrays.lean ====
/-
  The three arrays the region finds are host computations of the arguments: the gathered activations laid out as
  8192 rows, the scaled weight transposed and scattered along its columns, and the bias as one row.  Each is read
  off the list of host operations before the region; none of the operations is opened.
-/
import proofs.«416049_j77438260346927_3_alg».proof.Proof.Gen.KernelIdeal.Frame
import proofs.«416049_j77438260346927_3_alg».proof.Proof.KernelOut
import Idealize.ShloMosaic.Lib.StableHlo.Run

noncomputable section

open Idealize.ShloMosaic Idealize.ShloMosaic.TcCoe Idealize.SL.Sem Idealize.ShloMosaic.StableHlo

namespace Cert.KernelIdeal.Hand

open Cert.KernelIdeal Cert.KernelIdeal.Gen

variable (m : (ℓ : Loc nD τ sig) → Buf (Elt Ideal) ℓ)

attribute [local irreducible] Host.scatter Host.gather Host.reduce

/-- The activations' array: the gathered channels, 8192 rows. -/
theorem V_xflat (c : Dev nD) :
    V m c (Pipeline.arrRef spec0 0) = xflat (m ((c : Thread nD τ).loc main_arg0)) (m ((c : Thread nD τ).loc main_arg4)) := by
  show V m c main_v2 = _
  dsimp only [V, V0]
  simp only [hostOps0, hostOps0_1, List.flatten_cons, List.flatten_nil, List.append_nil, List.cons_append, List.nil_append]
  after_results_simp
  rfl

/-- The weight's array: the scaled weight transposed, its columns at the channels the table names. -/
theorem V_wfull (c : Dev nD) :
    V m c (Pipeline.arrRef spec0 1) = wfull (m ((c : Thread nD τ).loc main_arg1)) (m ((c : Thread nD τ).loc main_arg3)) := by
  show V m c main_v14 = _
  dsimp only [V, V0]
  simp only [hostOps0, hostOps0_1, List.flatten_cons, List.flatten_nil, List.append_nil, List.cons_append, List.nil_append]
  after_results_simp
  rfl

/-- The bias row's array. -/
theorem V_bias2 (c : Dev nD) :
    V m c (Pipeline.arrRef spec0 2) = bias2 (m ((c : Thread nD τ).loc main_arg2)) := by
  show V m c main_v15 = _
  dsimp only [V, V0]
  simp only [hostOps0, hostOps0_1, List.flatten_cons, List.flatten_nil, List.append_nil, List.cons_append, List.nil_append]
  after_results_simp
  rfl

end Cert.KernelIdeal.Hand

end
-- ==== Proof.LibDots.lean ====
/-
  Three matrix products on the extended reals, each read at one entry as the sum over the contracted coordinate of the
  products of the operands' entries. General facts, about no particular program: the shapes are literal with variable
  extents, and the dimension record is given by its six axis lists with ANY proof of its side condition.
-/
import Idealize.ShloMosaic.PureOps.Ideal.Laws
import Idealize.ShloMosaic.Lib.ValueIdx

noncomputable section

namespace Cert.Lib.Dots

open Idealize.ShloMosaic Idealize.ShloMosaic.ValueIdx

/-- An M×K array times the transpose of an N×K array (both contract their second axis), accumulated into the all-zero
    array: entry (r, c) is the sum over k of A (r, k) · B (c, k). -/
theorem matmul_zero_rowsT_apply {M K N : Nat} {φ₁ φ₂ : FTy}
    (w : DotDims.WF ⟨2, ![M, K]⟩ ⟨2, ![N, K]⟩ ⟨2, ![M, N]⟩ [1] [1] [0] [0] [] [])
    (prec : Option ContractPrecision) (A : FVec Ideal ⟨2, ![M, K]⟩ φ₁) (B : FVec Ideal ⟨2, ![N, K]⟩ φ₂) (r : Fin M) (c : Fin N) :
    matmul (F := Ideal) (⟨[1], [1], [0], [0], [], [], w⟩ : DotDims _ _ _) prec A B (constant ⟨2, ![M, N]⟩ .f32 0x00000000#32) (ix2 r c)
      = ∑ k : Fin K, A (ix2 r k) * B (ix2 c k) := by
  show FloatOps.matmul _ prec A B _ (ix2 r c) = _
  -- the entry is the sum over the contraction index; that index has one axis of extent K, so the sum runs over Fin K
  rw [Ideal.matmul_constant_zero_apply,
    ← Equiv.sum_comp (contrEquiv1 (⟨[1], [1], [0], [0], [], [], w⟩ : DotDims _ _ _) K rfl rfl).symm]
  refine Finset.sum_congr rfl fun k _ => ?_
  have c2 := contrEquiv1_symm_val
    (⟨[1], [1], [0], [0], [], [], w⟩ : DotDims ⟨2, ![M, K]⟩ ⟨2, ![N, K]⟩ ⟨2, ![M, N]⟩) K rfl rfl k
  -- the first operand is read at (row of the output, contracted coordinate)
  have l2 : (⟨[1], [1], [0], [0], [], [], w⟩ : DotDims ⟨2, ![M, K]⟩ ⟨2, ![N, K]⟩ ⟨2, ![M, N]⟩).lhsIdx (ix2 r c)
      ((contrEquiv1 _ K rfl rfl).symm k) = ix2 r k := by
    funext ax; apply Fin.ext
    match ax with
    | ⟨0, _⟩ => simp [DotDims.lhsIdx]; rfl
    | ⟨1, _⟩ => simp [DotDims.lhsIdx]; exact c2
  -- the second operand is read at (column of the output, contracted coordinate)
  have r2 : (⟨[1], [1], [0], [0], [], [], w⟩ : DotDims ⟨2, ![M, K]⟩ ⟨2, ![N, K]⟩ ⟨2, ![M, N]⟩).rhsIdx (ix2 r c)
      ((contrEquiv1 _ K rfl rfl).symm k) = ix2 c k := by
    funext ax; apply Fin.ext
    match ax with
    | ⟨0, _⟩ => simp [DotDims.rhsIdx]; rfl
    | ⟨1, _⟩ => simp [DotDims.rhsIdx]; exact c2
  rw [l2, r2]

/-- An M×K array times a K×N array, accumulated into the all-zero array: entry (r, c) is the sum over k of
    A (r, k) · B (k, c). -/
theorem matmul_zero_rowsCols_apply {M K N : Nat} {φ₁ φ₂ : FTy}
    (w : DotDims.WF ⟨2, ![M, K]⟩ ⟨2, ![K, N]⟩ ⟨2, ![M, N]⟩ [1] [0] [0] [1] [] [])
    (prec : Option ContractPrecision) (A : FVec Ideal ⟨2, ![M, K]⟩ φ₁) (B : FVec Ideal ⟨2, ![K, N]⟩ φ₂) (r : Fin M) (c : Fin N) :
    matmul (F := Ideal) (⟨[1], [0], [0], [1], [], [], w⟩ : DotDims _ _ _) prec A B (constant ⟨2, ![M, N]⟩ .f32 0x00000000#32) (ix2 r c)
      = ∑ k : Fin K, A (ix2 r k) * B (ix2 k c) := by
  show FloatOps.matmul _ prec A B _ (ix2 r c) = _
  -- the entry is the sum over the contraction index; that index has one axis of extent K, so the sum runs over Fin K
  rw [Ideal.matmul_constant_zero_apply,
    ← Equiv.sum_comp (contrEquiv1 (⟨[1], [0], [0], [1], [], [], w⟩ : DotDims _ _ _) K rfl rfl).symm]
  refine Finset.sum_congr rfl fun k _ => ?_
  have c2 := contrEquiv1_symm_val
    (⟨[1], [0], [0], [1], [], [], w⟩ : DotDims ⟨2, ![M, K]⟩ ⟨2, ![K, N]⟩ ⟨2, ![M, N]⟩) K rfl rfl k
  -- the first operand is read at (row of the output, contracted coordinate)
  have l2 : (⟨[1], [0], [0], [1], [], [], w⟩ : DotDims ⟨2, ![M, K]⟩ ⟨2, ![K, N]⟩ ⟨2, ![M, N]⟩).lhsIdx (ix2 r c)
      ((contrEquiv1 _ K rfl rfl).symm k) = ix2 r k := by
    funext ax; apply Fin.ext
    match ax with
    | ⟨0, _⟩ => simp [DotDims.lhsIdx]; rfl
    | ⟨1, _⟩ => simp [DotDims.lhsIdx]; exact c2
  -- the second operand is read at (contracted coordinate, column of the output)
  have r2 : (⟨[1], [0], [0], [1], [], [], w⟩ : DotDims ⟨2, ![M, K]⟩ ⟨2, ![K, N]⟩ ⟨2, ![M, N]⟩).rhsIdx (ix2 r c)
      ((contrEquiv1 _ K rfl rfl).symm k) = ix2 k c := by
    funext ax; apply Fin.ext
    match ax with
    | ⟨0, _⟩ => simp [DotDims.rhsIdx]; exact c2
    | ⟨1, _⟩ => simp [DotDims.rhsIdx]; rfl
  rw [l2, r2]

/-- The host's product of a G×M×K array with the transpose of an N×K array (the last axis of the first against the
    last axis of the second, no batch axis): entry (g, m, c) is the sum over k of A (g, m, k) · B (c, k). -/
theorem dotGeneral_rank3_rowsT_apply {G M K N : Nat} {φ₁ φ₂ : FTy}
    (w : DotDims.WF ⟨3, ![G, M, K]⟩ ⟨2, ![N, K]⟩ ⟨3, ![G, M, N]⟩ [2] [1] [0, 1] [0] [] [])
    (prec : Option ContractPrecision) (A : FVec Ideal ⟨3, ![G, M, K]⟩ φ₁) (B : FVec Ideal ⟨2, ![N, K]⟩ φ₂)
    (g : Fin G) (m : Fin M) (c : Fin N) :
    Host.dotGeneral (F := Ideal) (⟨[2], [1], [0, 1], [0], [], [], w⟩ : DotDims _ _ _) prec A B (ix3 g m c)
      = ∑ k : Fin K, A (ix3 g m k) * B (ix2 c k) := by
  show FloatOps.dotGeneral _ prec _ A B (ix3 g m c) = _
  -- the entry is the sum over the contraction index; that index has one axis of extent K, so the sum runs over Fin K
  rw [Ideal.dotGeneral_apply,
    ← Equiv.sum_comp (contrEquiv1 (⟨[2], [1], [0, 1], [0], [], [], w⟩ : DotDims _ _ _) K rfl rfl).symm]
  refine Finset.sum_congr rfl fun k _ => ?_
  have c3 := contrEquiv1_symm_val
    (⟨[2], [1], [0, 1], [0], [], [], w⟩ : DotDims ⟨3, ![G, M, K]⟩ ⟨2, ![N, K]⟩ ⟨3, ![G, M, N]⟩) K rfl rfl k
  -- the first operand keeps the output's two leading coordinates and takes the contracted one last
  have l3 : (⟨[2], [1], [0, 1], [0], [], [], w⟩ : DotDims ⟨3, ![G, M, K]⟩ ⟨2, ![N, K]⟩ ⟨3, ![G, M, N]⟩).lhsIdx (ix3 g m c)
      ((contrEquiv1 _ K rfl rfl).symm k) = ix3 g m k := by
    funext ax; apply Fin.ext
    match ax with
    | ⟨0, _⟩ => simp [DotDims.lhsIdx]; rfl
    | ⟨1, _⟩ => simp [DotDims.lhsIdx]; rfl
    | ⟨2, _⟩ => simp [DotDims.lhsIdx]; exact c3
  -- the second operand is read at (last coordinate of the output, contracted coordinate)
  have r3 : (⟨[2], [1], [0, 1], [0], [], [], w⟩ : DotDims ⟨3, ![G, M, K]⟩ ⟨2, ![N, K]⟩ ⟨3, ![G, M, N]⟩).rhsIdx (ix3 g m c)
      ((contrEquiv1 _ K rfl rfl).symm k) = ix2 c k := by
    funext ax; apply Fin.ext
    match ax with
    | ⟨0, _⟩ => simp [DotDims.rhsIdx]; rfl
    | ⟨1, _⟩ => simp [DotDims.rhsIdx]; exact c3
  rw [l3, r3]

end Cert.Lib.Dots

end
-- ==== Proof.KernelValue.lean ====
/-
  The kernel's program read back at the ideal instance: what its result buffer holds after the run.

  The region has 32 points; point t multiplies rows 256 t … 256 t + 255 of the gathered activations by the whole
  scattered weight, adds the bias row to every row of the product and writes the 256 × 4096 block back.  So what
  point t writes back is block t of the array of `entry`s, the 32 blocks tile that array, and after the region the
  host lays its 8192 rows out as 4 × 2048.  The three arrays the region finds are the host's `xflat`, `wfull` and
  `bias2` of the arguments, so the result buffer ends at `out` of the arguments.
-/
import proofs.«416049_j77438260346927_3_alg».proof.Proof.Gen.KernelIdeal.Frame
import proofs.«416049_j77438260346927_3_alg».proof.Proof.KernelOut
import proofs.«416049_j77438260346927_3_alg».proof.Proof.KernelArrays
import proofs.«416049_j77438260346927_3_alg».proof.Proof.LibDots
import Idealize.ShloMosaic.Lib.Pipeline.Value
import Idealize.ShloMosaic.Lib.ValueIdx
import Idealize.ShloMosaic.Lib.StableHlo.Run
import Idealize.ShloMosaic.Lib.Tactic

noncomputable section

open Idealize.ShloMosaic Idealize.ShloMosaic.TcCoe Idealize.SL.Sem
open Idealize.ShloMosaic.Pipeline (Dat)
open Idealize.ShloMosaic.ValueIdx

namespace Cert.KernelIdeal.Hand

open Cert.KernelIdeal Cert.KernelIdeal.Gen

/-! ## The body's stored value -/

/-- The body's stored value at (p, q): row p of the activation block against column q of the weight, plus the
    bias row's entry q (the matrix product into the zero accumulator is the plain sum of products). -/
theorem pay_apply (v0 : Vec Ideal S256x2048 .bf16) (v2 : Vec Ideal S2048x4096 .bf16) (v5 : Vec Ideal S1x4096 .f32)
    (p : Fin 256) (q : Fin 4096) :
    k0_pay1 v0 v2 v5 (ix2 p q) = (∑ k : Fin 2048, v0 (ix2 p k) * v2 (ix2 k q)) + v5 (ix2 0 q) := by
  unfold k0_pay1
  show (matmul (F := Ideal) dot_S256x2048_S2048x4096_S256x4096_1_0_0_1_n_n none
        (shapeCast S256x2048 v0 shapeCasts_S256x2048_S256x2048) (shapeCast S2048x4096 v2 shapeCasts_S2048x4096_S2048x4096)
        (constant S256x4096 .f32 0x00000000#32)) (ix2 p q)
      + (broadcastTo S256x4096 (shapeCast S1x4096 v5 shapeCasts_S1x4096_S1x4096) broadcasts_S1x4096_S256x4096) (ix2 p q) = _
  rw [shapeCast_self, shapeCast_self, shapeCast_self]
  refine congrArg₂ (· + ·) ?_ ?_
  · exact Cert.Lib.Dots.matmul_zero_rowsCols_apply _ none v0 v2 p q
  · refine broadcastTo_apply v5 _ (ix2 p q) (ix2 0 q) fun a => ?_
    match a with
    | ⟨0, _⟩ => rfl
    | ⟨1, _⟩ => rfl

/-! ## The windows' blocks, read off ANY contents of their arrays -/

theorem hz : (![0, 0] : Fin 2 → Nat) = fun _ => 0 := funext fun a => by fin_cases a <;> rfl

/-- The printed index maps, decided over the 32 points: the activations' and the result's block row is the point,
    the weight and the bias are one block each. -/
theorem idx_facts : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0 :=
  (by decide +kernel : ∀ t : Fin grid0.N, _)

/-- The activations' block at point t is rows 256 t … 256 t + 255. -/
theorem read_blk0 (t : Fin cfg0.N) (f : S8192x2048.Idx → EReal) (p : Fin 256) (k : Fin 2048) (r : Fin 8192)
    (hr : r.val = 256 * t.val + p.val) :
    ((cfg0.win 0).blk t).view.read (Elt Ideal) f (ix2 p k) = f (ix2 r k) := by
  obtain ⟨e0, e1, -⟩ := idx_facts t
  rw [View.read_apply]
  show f _ = f _
  refine congrArg f (funext fun a => Fin.ext ?_)
  match a with
  | ⟨0, _⟩ => show win0_0.index t (0 : Fin 2) * 256 + 1 * p.val = r.val; rw [e0, hr]; omega
  | ⟨1, _⟩ => show win0_0.index t (1 : Fin 2) * 2048 + 1 * k.val = k.val; rw [e1]; omega

/-- The weight's block at every point is the whole array. -/
theorem read_blk1 (t : Fin cfg0.N) (f : S2048x4096.Idx → EReal) (k : Fin 2048) (o : Fin 4096) :
    ((cfg0.win 1).blk t).view.read (Elt Ideal) f (ix2 k o) = f (ix2 k o) := by
  obtain ⟨-, -, e0, e1, -⟩ := idx_facts t
  rw [View.read_apply]
  show f _ = f _
  refine congrArg f (funext fun a => Fin.ext ?_)
  match a with
  | ⟨0, _⟩ => show win0_1.index t (0 : Fin 2) * 2048 + 1 * k.val = k.val; rw [e0]; omega
  | ⟨1, _⟩ => show win0_1.index t (1 : Fin 2) * 4096 + 1 * o.val = o.val; rw [e1]; omega

/-- The bias row's block at every point is the whole row. -/
theorem read_blk2 (t : Fin cfg0.N) (f : S1x4096.Idx → EReal) (o : Fin 4096) :
    ((cfg0.win 2).blk t).view.read (Elt Ideal) f (ix2 0 o) = f (ix2 0 o) := by
  obtain ⟨-, -, -, -, e0, e1, -⟩ := idx_facts t
  rw [View.read_apply]
  show f _ = f _
  refine congrArg f (funext fun a => Fin.ext ?_)
  match a with
  | ⟨0, _⟩ => show win0_2.index t (0 : Fin 2) * 1 + 1 * 0 = 0; rw [e0]
  | ⟨1, _⟩ => show win0_2.index t (1 : Fin 2) * 4096 + 1 * o.val = o.val; rw [e1]; omega

/-- The result's block at point t is rows 256 t … 256 t + 255. -/
theorem read_blk3 (t : Fin cfg0.N) (f : S8192x4096.Idx → EReal) (p : Fin 256) (q : Fin 4096) (r : Fin 8192)
    (hr : r.val = 256 * t.val + p.val) :
    ((cfg0.win 3).blk t).view.read (Elt Ideal) f (ix2 p q) = f (ix2 r q) := by
  obtain ⟨-, -, -, -, -, -, e0, e1⟩ := idx_facts t
  rw [View.read_apply]
  show f _ = f _
  refine congrArg f (funext fun a => Fin.ext ?_)
  match a with
  | ⟨0, _⟩ => show win0_3.index t (0 : Fin 2) * 256 + 1 * p.val = r.val; rw [e0, hr]; omega
  | ⟨1, _⟩ => show win0_3.index t (1 : Fin 2) * 4096 + 1 * q.val = q.val; rw [e1]; omega

/-! ## What the region writes -/

variable (m : (ℓ : Loc nD τ sig) → Buf (Elt Ideal) ℓ) (ρ : Dev nD → PrngReg)

/-- WHAT POINT t WRITES BACK is block t of `G` of the three arrays the region finds. -/
theorem flushed_eq (c : Dev nD) (t : Fin cfg0.N) :
    (dats m 0 c).flushed 3 t = ((cfg0.win 3).blk t).view.read (Elt Ideal)
      (G (V m c (Pipeline.arrRef spec0 0)) (V m c (Pipeline.arrRef spec0 1)) (V m c (Pipeline.arrRef spec0 2))) := by
  show (cfg0.win 3).cut (grid0.coords t) ((dats m 0 c).after 3 t) = _
  rw [after0_3]
  unfold out0_3 iblk
  generalize V m c (Pipeline.arrRef spec0 0) = A
  generalize V m c (Pipeline.arrRef spec0 1) = W
  generalize V m c (Pipeline.arrRef spec0 2) = b2
  rw [View.canon_unit_zero hz]
  simp only [View.ld_unit_zero (S := S256x2048) hz, View.ld_unit_zero (S := S2048x4096) hz, View.ld_unit_zero (S := S1x4096) hz]
  have ht : t.val < 32 := lt_of_lt_of_eq t.isLt N_0
  funext y
  obtain ⟨p, q, rfl⟩ : ∃ (p : Fin 256) (q : Fin 4096), y = ix2 p q := ⟨y 0, y 1, eq_ix2 y⟩
  have hr : 256 * t.val + p.val < 8192 := by have := p.isLt; omega
  rw [read_blk3 t _ p q ⟨256 * t.val + p.val, hr⟩ rfl, G_apply]
  show k0_pay1 (((cfg0.win 0).blk t).view.read (Elt Ideal) A) (((cfg0.win 1).blk t).view.read (Elt Ideal) W)
      (((cfg0.win 2).blk t).view.read (Elt Ideal) b2) (ix2 p q) = _
  refine (pay_apply _ _ _ p q).trans ?_
  unfold entry
  refine congrArg₂ (· + ·) (Finset.sum_congr rfl fun k _ => ?_) (read_blk2 t b2 q)
  exact congrArg₂ (· * ·) (read_blk0 t A p k _ rfl) (read_blk1 t W k q)

/-- An index of the result array is in point t's block iff each coordinate is in the block's range on its axis. -/
theorem mem_blk3 (t : Fin cfg0.N) (i : S8192x4096.Idx) :
    i ∈ ((cfg0.win 3).blk t).view.set ↔
      ∀ a : Fin 2, win0_3.index t a * S256x4096.size a ≤ (i a).val ∧ (i a).val < win0_3.index t a * S256x4096.size a + S256x4096.size a := by
  show i ∈ ((View.whole main_v16).slice (win0_3.rect t)).set ↔ _
  rw [View.set_slice_whole, Rect.mem_set_unit]
  exact Iff.rfl

/-- The 32 blocks tile the result array: row r is in the block of point r / 256. -/
theorem cover (i : S8192x4096.Idx) : ∃ t : Fin cfg0.N, (cfg0.win 3).flush t = true ∧ i ∈ ((cfg0.win 3).blk t).view.set := by
  have hi0 : (i 0).val < 8192 := (i 0).isLt
  have hi1 : (i 1).val < 4096 := (i 1).isLt
  have hN : cfg0.N = 32 := N_0
  have hlt : (i 0).val / 256 < cfg0.N := by rw [hN]; omega
  obtain ⟨-, -, -, -, -, -, e0, e1⟩ := idx_facts ⟨(i 0).val / 256, hlt⟩
  refine ⟨⟨(i 0).val / 256, hlt⟩, flush0_3 _, ?_⟩
  rw [mem_blk3]
  intro a
  match a with
  | ⟨0, _⟩ =>
    show win0_3.index ⟨(i 0).val / 256, hlt⟩ (0 : Fin 2) * 256 ≤ (i 0).val ∧ (i 0).val < win0_3.index ⟨(i 0).val / 256, hlt⟩ (0 : Fin 2) * 256 + 256
    rw [e0]
    show (i 0).val / 256 * 256 ≤ (i 0).val ∧ (i 0).val < (i 0).val / 256 * 256 + 256
    omega
  | ⟨1, _⟩ =>
    show win0_3.index ⟨(i 0).val / 256, hlt⟩ (1 : Fin 2) * 4096 ≤ (i 1).val ∧ (i 1).val < win0_3.index ⟨(i 0).val / 256, hlt⟩ (1 : Fin 2) * 4096 + 4096
    rw [e1]
    omega

/-- THE RESULT ARRAY after the region: `G` of the three arrays the region finds. -/
theorem final (c : Dev nD) :
    (dats m 0 c).arrAt 3 cfg0.N
      = G (V m c (Pipeline.arrRef spec0 0)) (V m c (Pipeline.arrRef spec0 1)) (V m c (Pipeline.arrRef spec0 2)) :=
  (dats m 0 c).arrAt_eq_of_cover 3 _ (fun t _ => flushed_eq m c t) cover

/-! ## After the region -/

/-- The result buffer after the host's last line: the region's result array with its 8192 rows laid out as
    4 × 2048. -/
theorem tail_eq (c : Dev nD) :
    Pipeline.afterTail₀ cfgs (dats m) 0 (V0 m) [hostOps1] c main_v17
      = shapeCast S4x2048x4096 ((dats m 0 c).arrAt 3 cfg0.N) shapeCasts_S8192x4096_S4x2048x4096 := by
  unfold Pipeline.afterTail₀
  show StableHlo.after hostOps1 _ (Proc.devRef .tc main_v17) = _
  after_results
  have hw : Pipeline.withArrays (cfgs 0).spec c (V0 m c) (fun w => (dats m 0 c).arrAt w (cfgs 0).N) (Proc.tc.devRef main_v16)
      = (dats m 0 c).arrAt 3 cfg0.N := Pipeline.withArrays_arr spec0 launch0.win.arr_inj c _ _ 3
  rw [hw]
  rfl

/-- The result buffer after the run is `out` of the arguments. -/
theorem result_eq (c : Dev nD) :
    Pipeline.afterTail₀ cfgs (dats m) 0 (V0 m) [hostOps1] c main_v17
      = out (m ((c : Thread nD τ).loc main_arg0)) (m ((c : Thread nD τ).loc main_arg1)) (m ((c : Thread nD τ).loc main_arg2))
          (m ((c : Thread nD τ).loc main_arg3)) (m ((c : Thread nD τ).loc main_arg4)) := by
  rw [tail_eq, final, V_xflat, V_wfull, V_bias2]
  rfl

/-- On every device, from any memory with zero counters: every weakly fair execution of @main terminates with the
    result buffer at `out` of the arguments and the arguments unchanged. -/
theorem run : θ_run defs (onTc (τ := τ) (main (F := Ideal))) ⟨m, fun _ => 0, ρ⟩ fun r => ∀ c : Dev nD,
      r.2.mem ((c.tc : Thread nD τ).loc main_v17)
        = out (m ((c.tc : Thread nD τ).loc main_arg0)) (m ((c.tc : Thread nD τ).loc main_arg1)) (m ((c.tc : Thread nD τ).loc main_arg2))
            (m ((c.tc : Thread nD τ).loc main_arg3)) (m ((c.tc : Thread nD τ).loc main_arg4))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  (θ_run defs _ _).mono (fun _ h c =>
      ⟨((h c).2 main_v17 (Pipeline.mem_restRefs_of main_v17 (by decide) (by decide))).trans (result_eq m c),
       ((h c).2 main_arg0 (Pipeline.mem_restRefs_of main_arg0 (by decide) (by decide))).trans (W_main_arg0 m (dats m) c),
       ((h c).2 main_arg1 (Pipeline.mem_restRefs_of main_arg1 (by decide) (by decide))).trans (W_main_arg1 m (dats m) c),
       ((h c).2 main_arg2 (Pipeline.mem_restRefs_of main_arg2 (by decide) (by decide))).trans (W_main_arg2 m (dats m) c),
       ((h c).2 main_arg3 (Pipeline.mem_restRefs_of main_arg3 (by decide) (by decide))).trans (W_main_arg3 m (dats m) c),
       ((h c).2 main_arg4 (Pipeline.mem_restRefs_of main_arg4 (by decide) (by decide))).trans (W_main_arg4 m (dats m) c)⟩)
    (run_main m ρ)

end Cert.KernelIdeal.Hand

end
-- ==== Proof.RefRun.lean ====
/-
  The reference read back: its @main as the list of its host operations, the run of that list, and the result as one
  function of the five arguments.

  The program gathers the channels `cols` of the activations, scales the compact weight by the constant 0.05,
  multiplies (each row of the gathered activations against each row of the scaled weight), writes the products at
  the channels the table of `rows` names into an array of zeros, and adds the bias along the last axis.  The
  gather is a function the program calls; its operations are listed at the call, over the call's own buffers.
-/
import proofs.«416049_j77438260346927_3_alg».proof.Proof.Gen.ReferenceIdeal
import proofs.«416049_j77438260346927_3_alg».proof.Proof.HostShared
import Idealize.ShloMosaic.Lib.StableHlo.Run

noncomputable section

namespace Cert.ReferenceIdeal.Hand

open Cert.ReferenceIdeal Cert.ReferenceIdeal.Gen Idealize.ShloMosaic Idealize.ShloMosaic.TcCoe Idealize.SL.Sem Idealize.ShloMosaic.StableHlo

variable {F : FTy → Type} [FloatOps F]

/-- @main's operations in order: the twenty-three of the gather (the comparison with zero, the sum with 4096 and the
    select that count negative channel numbers from the end; the column; the range test and its reduction; the
    gather; the fill), then @main's own eighteen. -/
abbrev ops : List (HloOp τ sig (Elt F)) :=
  [ TRef.nullary main_call0.c (constantI S_ 32 0#32),
    TRef.unary main_call0.c main_call0.v0 (broadcastInDim S2048 ![] bcast_S_S2048),
    TRef.binary (.of main_arg4 : TRef sig ⟨S2048, .i32⟩) main_call0.v0 main_call0.v1 (cmpi .slt),
    TRef.nullary main_call0.c_0 (constantI S_ 32 4096#32),
    TRef.unary main_call0.c_0 main_call0.v2 (broadcastInDim S2048 ![] bcast_S_S2048),
    TRef.binary (.of main_arg4 : TRef sig ⟨S2048, .i32⟩) main_call0.v2 main_call0.v3 addi,
    TRef.ternary main_call0.v1 main_call0.v3 (.of main_arg4 : TRef sig ⟨S2048, .i32⟩) main_call0.call0.v0 select,
    TRef.unary main_call0.call0.v0 main_call0.v5 (broadcastInDim S2048x1 ![0] bcast_S2048_S2048x1_0),
    TRef.nullary main_call0.c_1 (constantI S1 32 4095#32),
    TRef.nullary main_call0.c_2 (constantI S_ 32 0#32),
    TRef.unary main_call0.c_2 main_call0.v6 (broadcastInDim S2048x1 ![] bcast_S_S2048x1),
    TRef.binary main_call0.v5 main_call0.v6 main_call0.v7 (cmpi .sge),
    TRef.unary main_call0.c_1 main_call0.v8 (broadcastInDim S1x1 ![1] bcast_S1_S1x1_1),
    TRef.unary main_call0.v8 main_call0.v9 (broadcastInDim S2048x1 ![0, 1] bcast_S1x1_S2048x1_0_1),
    TRef.binary main_call0.v5 main_call0.v9 main_call0.v10 (cmpi .sle),
    TRef.binary main_call0.v7 main_call0.v10 main_call0.v11 andi,
    TRef.nullary main_call0.c_3 (constantI S_ 1 1#1),
    TRef.binary main_call0.v11 main_call0.c_3 main_call0.v12 (fun x v => Host.reduce IntOp.andi x v reducesTo_S2048x1_S2048_d1 h_S_),
    TRef.binary (.of main_arg0 : TRef sig ⟨S4x2048x4096, .f32⟩) main_call0.v5 main_call0.v13 (fun x i => Host.gather gather_S4x2048x4096_S2048x1_S4x2048x2048_01_2_n_n_2_1_420481 x i),
    TRef.unary main_call0.v12 main_call0.v14 (broadcastInDim S4x2048x2048 ![2] bcast_S2048_S4x2048x2048_2),
    TRef.nullary main_call0.cst (constant S_ .f32 0x7FC00000#32),
    TRef.unary main_call0.cst main_call0.v15 (broadcastInDim S4x2048x2048 ![] bcast_S_S4x2048x2048),
    TRef.ternary main_call0.v14 main_call0.v13 main_call0.v15 main_call0.v16 select,
    nullary main_cst (constant S_ .f32 0x3D4CCCCD#32),
    unary main_cst main_v1 (broadcastInDim S2048x2048 ![] bcast_S_S2048x2048 : (⟨S_, .f32⟩ : BufTy).Contents (Elt F) → (⟨S2048x2048, .f32⟩ : BufTy).Contents (Elt F)),
    binary main_arg1 main_v1 main_v2 (mulf : (⟨S2048x2048, .f32⟩ : BufTy).Contents (Elt F) → (⟨S2048x2048, .f32⟩ : BufTy).Contents (Elt F) → (⟨S2048x2048, .f32⟩ : BufTy).Contents (Elt F)),
    binary main_v0 main_v2 main_v3 ((fun l r => Host.dotGeneral dot_S4x2048x2048_S2048x2048_S4x2048x2048_2_1_01_0_n_n none l r) : (⟨S4x2048x2048, .f32⟩ : BufTy).Contents (Elt F) → (⟨S2048x2048, .f32⟩ : BufTy).Contents (Elt F) → (⟨S4x2048x2048, .f32⟩ : BufTy).Contents (Elt F)),
    nullary main_cst_0 (constant S_ .f32 0x00000000#32),
    unary main_cst_0 main_v4 (broadcastInDim S4x2048x4096 ![] bcast_S_S4x2048x4096 : (⟨S_, .f32⟩ : BufTy).Contents (Elt F) → (⟨S4x2048x4096, .f32⟩ : BufTy).Contents (Elt F)),
    nullary main_c (constantI S_ 32 0#32),
    unary main_c main_v5 (broadcastInDim S2048 ![] bcast_S_S2048 : (⟨S_, .i32⟩ : BufTy).Contents (Elt F) → (⟨S2048, .i32⟩ : BufTy).Contents (Elt F)),
    binary main_arg3 main_v5 main_v6 (cmpi .slt : (⟨S2048, .i32⟩ : BufTy).Contents (Elt F) → (⟨S2048, .i32⟩ : BufTy).Contents (Elt F) → (⟨S2048, .i1⟩ : BufTy).Contents (Elt F)),
    nullary main_c_1 (constantI S_ 32 4096#32),
    unary main_c_1 main_v7 (broadcastInDim S2048 ![] bcast_S_S2048 : (⟨S_, .i32⟩ : BufTy).Contents (Elt F) → (⟨S2048, .i32⟩ : BufTy).Contents (Elt F)),
    binary main_arg3 main_v7 main_v8 (addi : (⟨S2048, .i32⟩ : BufTy).Contents (Elt F) → (⟨S2048, .i32⟩ : BufTy).Contents (Elt F) → (⟨S2048, .i32⟩ : BufTy).Contents (Elt F)),
    ternary main_v6 main_v8 main_arg3 main_v9 (select : (⟨S2048, .i1⟩ : BufTy).Contents (Elt F) → (⟨S2048, .i32⟩ : BufTy).Contents (Elt F) → (⟨S2048, .i32⟩ : BufTy).Contents (Elt F) → (⟨S2048, .i32⟩ : BufTy).Contents (Elt F)),
    unary main_v9 main_v10 (broadcastInDim S2048x1 ![0] bcast_S2048_S2048x1_0 : (⟨S2048, .i32⟩ : BufTy).Contents (Elt F) → (⟨S2048x1, .i32⟩ : BufTy).Contents (Elt F)),
    ternary main_v4 main_v10 main_v3 main_v11 ((fun x i u => Host.scatter scatter_S4x2048x4096_S2048x1_S4x2048x2048_01_2_2_1 (fun _ b => b) x i u) : (⟨S4x2048x4096, .f32⟩ : BufTy).Contents (Elt F) → (⟨S2048x1, .i32⟩ : BufTy).Contents (Elt F) → (⟨S4x2048x2048, .f32⟩ : BufTy).Contents (Elt F) → (⟨S4x2048x4096, .f32⟩ : BufTy).Contents (Elt F)),
    unary main_arg2 main_v12 (broadcastInDim S1x1x4096 ![2] bcast_S4096_S1x1x4096_2 : (⟨S4096, .f32⟩ : BufTy).Contents (Elt F) → (⟨S1x1x4096, .f32⟩ : BufTy).Contents (Elt F)),
    unary main_v12 main_v13 (broadcastInDim S4x2048x4096 ![0, 1, 2] bcast_S1x1x4096_S4x2048x4096_0_1_2 : (⟨S1x1x4096, .f32⟩ : BufTy).Contents (Elt F) → (⟨S4x2048x4096, .f32⟩ : BufTy).Contents (Elt F)),
    binary main_v11 main_v13 main_v14 (addf : (⟨S4x2048x4096, .f32⟩ : BufTy).Contents (Elt F) → (⟨S4x2048x4096, .f32⟩ : BufTy).Contents (Elt F) → (⟨S4x2048x4096, .f32⟩ : BufTy).Contents (Elt F)) ]

-- forty-one binds re-associated
set_option maxRecDepth 1024 in
/-- @main is that straight line: the called functions unfolded at their calls. -/
theorem main_eq (c : Dev nD) : main (F := F) c = seq ops := by
  simp only [main, fn_take.body, fn_where.body, seq, bind_assoc, pure_bind]

theorem scopedRefs_eq : (Finset.univ.filter fun b : Ref sig .tc => b.isScoped) = ∅ := by decide
theorem scopedSems_eq : (Finset.univ.filter fun sm : SemLoc sig => sm.isScoped .tc) = ∅ := by decide

theorem ops_sub : (ops : List (HloOp τ sig (Elt F))).Forall fun op => op.bufs ⊆ tcRefs τ sig :=
  ⟨nullary_bufs_sub .., unary_bufs_sub .., binary_bufs_sub .., nullary_bufs_sub .., unary_bufs_sub .., binary_bufs_sub ..,
    ternary_bufs_sub .., unary_bufs_sub .., nullary_bufs_sub .., nullary_bufs_sub .., unary_bufs_sub .., binary_bufs_sub ..,
    unary_bufs_sub .., unary_bufs_sub .., binary_bufs_sub .., binary_bufs_sub .., nullary_bufs_sub .., binary_bufs_sub ..,
    binary_bufs_sub .., unary_bufs_sub .., nullary_bufs_sub .., unary_bufs_sub .., ternary_bufs_sub ..,
    nullary_bufs_sub .., unary_bufs_sub .., binary_bufs_sub .., binary_bufs_sub .., nullary_bufs_sub .., unary_bufs_sub ..,
    nullary_bufs_sub .., unary_bufs_sub .., binary_bufs_sub .., nullary_bufs_sub .., unary_bufs_sub .., binary_bufs_sub ..,
    ternary_bufs_sub .., unary_bufs_sub .., ternary_bufs_sub .., unary_bufs_sub .., unary_bufs_sub .., binary_bufs_sub ..⟩

/-- The result as one function of the arguments: the products of the gathered activations with the scaled weight,
    written at the channels the table names into zeros, plus the bias. -/
def out (x : FVec F S4x2048x4096 .f32) (cw : FVec F S2048x2048 .f32) (bias : FVec F S4096 .f32) (rows cols : IVec S2048 32) :
    FVec F S4x2048x4096 .f32 :=
  addf
    (Host.scatter scatter_S4x2048x4096_S2048x1_S4x2048x2048_01_2_2_1 (fun _ b => b)
      (broadcastInDim S4x2048x4096 ![] bcast_S_S4x2048x4096 (constant S_ .f32 0x00000000#32))
      (Cert.Shared.chanIdx rows)
      (Host.dotGeneral dot_S4x2048x2048_S2048x2048_S4x2048x2048_2_1_01_0_n_n none (Cert.Shared.takeCols x cols)
        (mulf cw (broadcastInDim S2048x2048 ![] bcast_S_S2048x2048 (constant S_ .f32 0x3D4CCCCD#32)))))
    (broadcastInDim S4x2048x4096 ![0, 1, 2] bcast_S1x1x4096_S4x2048x4096_0_1_2
      (broadcastInDim S1x1x4096 ![2] bcast_S4096_S1x1x4096_2 bias))

/-- The operations' fold at the result buffer is `out` of the arguments' contents. -/
theorem out_eq (V : Valuation τ sig (Elt F)) :
    after ops V (main_v14 : DevRef τ sig)
      = out (V (main_arg0 : DevRef τ sig)) (V (main_arg1 : DevRef τ sig)) (V (main_arg2 : DevRef τ sig))
          (V (main_arg3 : DevRef τ sig)) (V (main_arg4 : DevRef τ sig)) := by
  after_results_simp
  rfl

/-- On every device, from any memory with zero counters: every weakly fair execution of @main terminates with the
    result at `out` of the arguments and the arguments unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v14)
        = out (m ((c.tc : Thread nD τ).loc main_arg0)) (m ((c.tc : Thread nD τ).loc main_arg1))
            (m ((c.tc : Thread nD τ).loc main_arg2)) (m ((c.tc : Thread nD τ).loc main_arg3)) (m ((c.tc : Thread nD τ).loc main_arg4))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  (θ_run defs _ _).mono (fun _ h c => ⟨(h c main_v14).trans (out_eq _),
      (h c main_arg0).trans (by after_results_simp),
      (h c main_arg1).trans (by after_results_simp),
      (h c main_arg2).trans (by after_results_simp),
      (h c main_arg3).trans (by after_results_simp),
      (h c main_arg4).trans (by after_results_simp)⟩)
    (run_seq scopedRefs_eq scopedSems_eq defs main (fun _ => ops) main_eq (fun _ => ops_sub) m ρ)

end Cert.ReferenceIdeal.Hand

end
-- ==== Proof.LibScatterSet.lean ====
/-
  A scatter whose body returns the update — "write these values at these places" — read at one position.

  The scatter visits the update's indices one after another and, for each, replaces the entry at the position that
  index lands on (when it lands inside the array).  Read at a fixed position i, the walk changes the entry only at
  the steps whose landing position is i.  So if exactly one update index j lands on i the result there is the
  update's entry j, and if none does the result is the array's own entry.

  The first part is about any such walk along a list; the second reads the landing position of an update index as
  one equation per axis, "start plus offset inside the window equals the coordinate"; the last states the two facts
  for the scatter itself.
-/
import Idealize.ShloMosaic.PureOps

namespace Cert.Lib.ScatterSet

open Idealize.ShloMosaic

/-! ## Writing along a list -/

section Walk
variable {ι κ α : Type} [DecidableEq κ]

/-- One step of the walk: item `n` lands at position `g n` (if anywhere) and the entry there becomes `upd n`. -/
def put (g : ι → Option κ) (upd : ι → α) (r : κ → α) (n : ι) : κ → α :=
  match g n with
  | some i => fun i' => if i' = i then upd n else r i'
  | none => r

/-- A step that lands on `i` leaves its own value there. -/
theorem put_hit (g : ι → Option κ) (upd : ι → α) (r : κ → α) (n : ι) (i : κ) (h : g n = some i) :
    put g upd r n i = upd n := by
  unfold put
  rw [h]
  exact if_pos rfl

/-- A step that does not land on `i` leaves the entry at `i` as it was. -/
theorem put_miss (g : ι → Option κ) (upd : ι → α) (r : κ → α) (n : ι) (i : κ) (h : g n ≠ some i) :
    put g upd r n i = r i := by
  unfold put
  cases hg : g n with
  | none => rfl
  | some k =>
    have hne : i ≠ k := fun e => h (by rw [hg, e])
    exact if_neg hne

/-- If no item of the list lands on `i`, the walk leaves the entry at `i` as it was. -/
theorem foldl_put_miss (g : ι → Option κ) (upd : ι → α) (L : List ι) (x : κ → α) (i : κ)
    (h : ∀ n ∈ L, g n ≠ some i) : L.foldl (put g upd) x i = x i := by
  induction L using List.reverseRecOn with
  | nil => rfl
  | append_singleton L a ih =>
    rw [List.foldl_append, List.foldl_cons, List.foldl_nil,
      put_miss g upd _ a i (h a (List.mem_append_right _ (List.mem_singleton_self a)))]
    exact ih (fun n hn => h n (List.mem_append_left _ hn))

/-- If item `j` of the list lands on `i` and it is the only item that does, the walk leaves `upd j` at `i`:
    later steps land elsewhere, and earlier writes at `i` (there are none but `j`'s) are overwritten. -/
theorem foldl_put_hit (g : ι → Option κ) (upd : ι → α) (L : List ι) (x : κ → α) (i : κ) (j : ι)
    (hj : j ∈ L) (hji : g j = some i) (huniq : ∀ n ∈ L, g n = some i → n = j) :
    L.foldl (put g upd) x i = upd j := by
  induction L using List.reverseRecOn with
  | nil => exact absurd hj List.not_mem_nil
  | append_singleton L a ih =>
    rw [List.foldl_append, List.foldl_cons, List.foldl_nil]
    by_cases ha : g a = some i
    · rw [put_hit g upd _ a i ha, huniq a (List.mem_append_right _ (List.mem_singleton_self a)) ha]
    · rw [put_miss g upd _ a i ha]
      refine ih ?_ (fun n hn => huniq n (List.mem_append_left _ hn))
      rcases List.mem_append.1 hj with h | h
      · exact h
      · have e : j = a := List.mem_singleton.1 h
        exact absurd (e ▸ hji) ha

end Walk

/-! ## Where an update index lands -/

section Scatter
variable {s si u : Shape} {α : Type} {w : Nat}

/-- Update index `j` lands on position `i` exactly when, on every axis, the window's start plus `j`'s offset inside
    the window is `i`'s coordinate. -/
theorem resultIdx?_eq_some_iff (d : ScatterDims s si u) (j : u.Idx) (idx : IVec si w) (i : s.Idx) :
    d.resultIdx? j idx = some i ↔ ∀ a, d.start j idx a + (d.window j a : Int) = ((i a).val : Int) := by
  unfold ScatterDims.resultIdx?
  constructor
  · intro h a
    by_cases hh : ∀ a, 0 ≤ d.start j idx a + d.window j a ∧ d.start j idx a + d.window j a < s.size a
    · rw [dif_pos hh] at h
      have e := congrFun (Option.some.inj h) a
      have h0 := (hh a).1
      rw [← e]
      show _ = (((d.start j idx a + d.window j a).toNat : Nat) : Int)
      omega
    · rw [dif_neg hh] at h
      exact absurd h (by simp)
  · intro h
    have hh : ∀ a, 0 ≤ d.start j idx a + d.window j a ∧ d.start j idx a + d.window j a < s.size a := fun a => by
      have := h a; have := (i a).isLt; omega
    rw [dif_pos hh]
    refine congrArg some (funext fun a => Fin.ext ?_)
    show (d.start j idx a + d.window j a).toNat = (i a).val
    have := h a; omega

/-- The scatter that writes the update is the walk along the update's indices in row-major order. -/
theorem scatter_eq_foldl (d : ScatterDims s si u) (x : s.Idx → α) (idx : IVec si w) (upd : u.Idx → α) :
    Host.scatter d (fun _ b => b) x idx upd =
      ((List.finRange u.numel).map u.rowMajor.symm).foldl (put (fun j => d.resultIdx? j idx) upd) x := by
  rw [List.foldl_map]
  unfold Host.scatter
  refine congrArg (fun f => List.foldl f x (List.finRange u.numel)) (funext fun r => funext fun n => ?_)
  unfold put
  dsimp only
  cases d.resultIdx? (u.rowMajor.symm n) idx <;> rfl

/-- A scatter that writes the update, read at a position `i` that exactly one update index `j` lands on: the
    update's entry `j`. -/
theorem scatter_set_hit (d : ScatterDims s si u) (x : s.Idx → α) (idx : IVec si w) (upd : u.Idx → α)
    (i : s.Idx) (j : u.Idx) (hji : d.resultIdx? j idx = some i)
    (huniq : ∀ j', d.resultIdx? j' idx = some i → j' = j) :
    Host.scatter d (fun _ b => b) x idx upd i = upd j := by
  rw [scatter_eq_foldl]
  exact foldl_put_hit (fun j => d.resultIdx? j idx) upd _ x i j
    (List.mem_map.2 ⟨u.rowMajor j, List.mem_finRange _, u.rowMajor.symm_apply_apply j⟩) hji (fun n _ hn => huniq n hn)

/-- The same when the landing positions of the update's indices are pairwise distinct. -/
theorem scatter_set_hit_of_injective (d : ScatterDims s si u) (x : s.Idx → α) (idx : IVec si w) (upd : u.Idx → α)
    (hinj : ∀ j j' i, d.resultIdx? j idx = some i → d.resultIdx? j' idx = some i → j = j')
    (i : s.Idx) (j : u.Idx) (hji : d.resultIdx? j idx = some i) :
    Host.scatter d (fun _ b => b) x idx upd i = upd j :=
  scatter_set_hit d x idx upd i j hji (fun j' h' => hinj j' j i h' hji)

/-- A scatter that writes the update, read at a position no update index lands on: the array's own entry. -/
theorem scatter_set_miss (d : ScatterDims s si u) (x : s.Idx → α) (idx : IVec si w) (upd : u.Idx → α)
    (i : s.Idx) (h : ∀ j, d.resultIdx? j idx ≠ some i) :
    Host.scatter d (fun _ b => b) x idx upd i = x i := by
  rw [scatter_eq_foldl]
  exact foldl_put_miss (fun j => d.resultIdx? j idx) upd _ x i (fun n _ => h n)

end Scatter

end Cert.Lib.ScatterSet
-- ==== Proof.LibScatterLast.lean ====
/-
  A scatter whose body returns the update, read at one position when SEVERAL update indices may land there.

  The scatter visits the update's indices in row-major order and each visit that lands on a position overwrites
  what earlier visits left there.  So the entry at a position i is the update's entry at the LAST update index (in
  row-major order) that lands on i: if j lands on i and no update index after j does, the result at i is the
  update's entry j.  Nothing is asked of the landing positions being distinct.

  The first part is about any such walk along a list whose items come in increasing order of a rank; the second
  states it for the scatter, the rank being the row-major position.
-/
import proofs.«416049_j77438260346927_3_alg».proof.Proof.LibScatterSet

namespace Cert.Lib.ScatterLast

open Idealize.ShloMosaic Cert.Lib.ScatterSet

section Walk
variable {ι κ α : Type} [DecidableEq κ]

/-- Along a list whose items come in strictly increasing rank: if item `j` lands on `i` and every item that lands
    on `i` has rank at most `j`'s, the walk leaves `upd j` at `i` — later items land elsewhere, and whatever
    earlier items wrote at `i` is overwritten by `j`'s write. -/
theorem foldl_put_last (g : ι → Option κ) (upd : ι → α) (rank : ι → Nat) (L : List ι) (x : κ → α) (i : κ) (j : ι)
    (hs : L.Pairwise (fun a b => rank a < rank b)) (hj : j ∈ L) (hji : g j = some i)
    (hlast : ∀ n ∈ L, g n = some i → rank n ≤ rank j) :
    L.foldl (put g upd) x i = upd j := by
  induction L using List.reverseRecOn with
  | nil => exact absurd hj List.not_mem_nil
  | append_singleton L a ih =>
    rw [List.foldl_append, List.foldl_cons, List.foldl_nil]
    have hsL := List.pairwise_append.1 hs
    by_cases ha : g a = some i
    · rw [put_hit g upd _ a i ha]
      have hle := hlast a (List.mem_append_right _ (List.mem_singleton_self a)) ha
      rcases List.mem_append.1 hj with h | h
      · have hlt := hsL.2.2 j h a (List.mem_singleton_self a)
        omega
      · rw [List.mem_singleton.1 h]
    · rw [put_miss g upd _ a i ha]
      refine ih hsL.1 ?_ (fun n hn => hlast n (List.mem_append_left _ hn))
      rcases List.mem_append.1 hj with h | h
      · exact h
      · have e : j = a := List.mem_singleton.1 h
        exact absurd (e ▸ hji) ha

end Walk

section Scatter
variable {s si u : Shape} {α : Type} {w : Nat}

/-- A scatter that writes the update, read at a position `i`: if update index `j` lands on `i` and no update
    index later than `j` in row-major order does, the result at `i` is the update's entry `j`. -/
theorem scatter_set_last (d : ScatterDims s si u) (x : s.Idx → α) (idx : IVec si w) (upd : u.Idx → α)
    (i : s.Idx) (j : u.Idx) (hji : d.resultIdx? j idx = some i)
    (hlast : ∀ j', d.resultIdx? j' idx = some i → (u.rowMajor j').val ≤ (u.rowMajor j).val) :
    Host.scatter d (fun _ b => b) x idx upd i = upd j := by
  rw [scatter_eq_foldl]
  refine foldl_put_last (fun j => d.resultIdx? j idx) upd (fun j => (u.rowMajor j).val) _ x i j ?_ ?_ hji
    (fun n _ hn => hlast n hn)
  · rw [List.pairwise_map]
    refine (List.pairwise_lt_finRange u.numel).imp ?_
    intro a b hab
    rw [Equiv.apply_symm_apply, Equiv.apply_symm_apply]
    exact hab
  · exact List.mem_map.2 ⟨u.rowMajor j, List.mem_finRange _, u.rowMajor.symm_apply_apply j⟩

end Scatter

end Cert.Lib.ScatterLast
-- ==== Proof.ScatterChannels.lean ====
/-
  Two scatters along the channel axis with ONE table of channel numbers, and why a product taken after the first
  equals the second taken after the product.

  The table `idx` gives, for each of 2048 compact channels j, a full channel number (read signed; it may fall outside
  0 … 4095, then channel j is dropped, and two compact channels may name the same full channel, then the later one
  wins).  The first scatter writes column j of a 2048×2048 array into column idx j of a 2048×4096 array of zeros;
  the second writes the last-axis entry j of a 4×2048×2048 array into entry idx j of a 4×2048×4096 array of zeros.
  Read at full channel o, each is the entry of the LAST compact channel j with idx j = o, or zero when there is
  none — the same j for both, since both walk the compact channels in increasing order within a row.  Hence
  "sum over k of T (b, s, k) · (first scatter of Wᵀ) (k, o)" is "(second scatter of the products T · Wᵀ) (b, s, o)":
  with a last j both are the sum over k of T (b, s, k) · W (j, k); with none, a sum of products with zero, which
  is zero on the extended reals.
-/
import proofs.«416049_j77438260346927_3_alg».proof.Proof.LibScatterSet
import proofs.«416049_j77438260346927_3_alg».proof.Proof.LibScatterLast
import Idealize.ShloMosaic.PureOps.Ideal
import Idealize.ShloMosaic.Lib.ValueIdx

noncomputable section

namespace Cert.Channels

open Idealize.ShloMosaic Idealize.ShloMosaic.ValueIdx Cert.Lib.ScatterSet Cert.Lib.ScatterLast

/-- The table's shape: one channel number per compact channel. -/
abbrev Stab : Shape := ⟨2, ![2048, 1]⟩
/-- The weight scatter's operand, 2048 × 4096. -/
abbrev Sw : Shape := ⟨2, ![2048, 4096]⟩
/-- Its update, 2048 × 2048. -/
abbrev Uw : Shape := ⟨2, ![2048, 2048]⟩
/-- The result scatter's operand, 4 × 2048 × 4096. -/
abbrev Sy : Shape := ⟨3, ![4, 2048, 4096]⟩
/-- Its update, 4 × 2048 × 2048. -/
abbrev Uy : Shape := ⟨3, ![4, 2048, 2048]⟩

/-- Columns of the update go to the columns the table names. -/
def dW : ScatterDims Sw Stab Uw :=
  { updateWindowDims := [0], insertedWindowDims := [1], scatterDimsToOperandDims := [1], indexVectorDim := 1 }
/-- Last-axis entries of the update go to the last-axis entries the table names. -/
def dY : ScatterDims Sy Stab Uy :=
  { updateWindowDims := [0, 1], insertedWindowDims := [2], scatterDimsToOperandDims := [2], indexVectorDim := 1 }

/-! ## Where an update index lands -/

theorem siIdxW (j : Uw.Idx) (c) : dW.siIdx j c = ix2 (j 1) 0 := by
  funext b
  match b with
  | ⟨0, _⟩ => rfl
  | ⟨1, _⟩ => apply Fin.ext; simp [ScatterDims.siIdx]; have := c.isLt; simp [dW] at this; omega

theorem siIdxY (j : Uy.Idx) (c) : dY.siIdx j c = ix2 (j 2) 0 := by
  funext b
  match b with
  | ⟨0, _⟩ => rfl
  | ⟨1, _⟩ => apply Fin.ext; simp [ScatterDims.siIdx]; have := c.isLt; simp [dY] at this; omega

theorem startW1 (j : Uw.Idx) (idx : IVec Stab 32) : dW.start j idx 1 = (idx (ix2 (j 1) 0)).toInt := by
  unfold ScatterDims.start
  rw [dif_pos (by decide), siIdxW]
  rfl

theorem startY2 (j : Uy.Idx) (idx : IVec Stab 32) : dY.start j idx 2 = (idx (ix2 (j 2) 0)).toInt := by
  unfold ScatterDims.start
  rw [dif_pos (by decide), siIdxY]
  rfl

/-- Update index (k, j) of the weight scatter lands on (k, o) exactly when the table sends j to o. -/
theorem landsW (j : Uw.Idx) (idx : IVec Stab 32) (i : Sw.Idx) :
    dW.resultIdx? j idx = some i ↔ (j 0).val = (i 0).val ∧ (idx (ix2 (j 1) 0)).toInt = ((i 1).val : Int) := by
  rw [resultIdx?_eq_some_iff, Fin.forall_fin_two, startW1]
  have w0 : dW.window j 0 = (j 0).val := rfl
  have w1 : dW.window j 1 = 0 := rfl
  have s0 : dW.start j idx 0 = 0 := rfl
  rw [w0, w1, s0]
  constructor
  · rintro ⟨h0, h1⟩; exact ⟨by omega, by omega⟩
  · rintro ⟨h0, h1⟩; exact ⟨by omega, by omega⟩

/-- Update index (b, s, j) of the result scatter lands on (b, s, o) exactly when the table sends j to o. -/
theorem landsY (j : Uy.Idx) (idx : IVec Stab 32) (i : Sy.Idx) :
    dY.resultIdx? j idx = some i ↔
      (j 0).val = (i 0).val ∧ (j 1).val = (i 1).val ∧ (idx (ix2 (j 2) 0)).toInt = ((i 2).val : Int) := by
  rw [resultIdx?_eq_some_iff, Fin.forall_fin_succ, Fin.forall_fin_two]
  have w0 : dY.window j 0 = (j 0).val := rfl
  have w1 : dY.window j 1 = (j 1).val := rfl
  have w2 : dY.window j 2 = 0 := rfl
  have s0 : dY.start j idx 0 = 0 := rfl
  have s1 : dY.start j idx 1 = 0 := rfl
  have e2 := startY2 j idx
  constructor
  · rintro ⟨h0, h1, h2⟩
    rw [w0, s0] at h0
    have h1' : dY.start j idx 1 + (dY.window j 1 : Int) = ((i 1).val : Int) := h1
    rw [w1, s1] at h1'
    have h2' : dY.start j idx 2 + (dY.window j 2 : Int) = ((i 2).val : Int) := h2
    rw [w2, e2] at h2'
    exact ⟨by omega, by omega, by omega⟩
  · rintro ⟨h0, h1, h2⟩
    refine ⟨?_, ?_, ?_⟩
    · rw [w0, s0]; omega
    · show dY.start j idx 1 + (dY.window j 1 : Int) = ((i 1).val : Int)
      rw [w1, s1]; omega
    · show dY.start j idx 2 + (dY.window j 2 : Int) = ((i 2).val : Int)
      rw [w2, e2]; omega

/-! ## The two scatters read at a full channel -/

section Read
variable {α : Type}

/-- With a last compact channel `j` sent to `o`, the weight scatter at (k, o) is the update at (k, j). -/
theorem scatterW_last (x : Sw.Idx → α) (idx : IVec Stab 32) (upd : Uw.Idx → α) (k : Fin 2048) (o : Fin 4096) (j : Fin 2048)
    (hj : (idx (ix2 j 0)).toInt = (o.val : Int)) (hmax : ∀ j' : Fin 2048, (idx (ix2 j' 0)).toInt = (o.val : Int) → j'.val ≤ j.val) :
    Host.scatter dW (fun _ b => b) x idx upd (ix2 k o) = upd (ix2 k j) := by
  refine scatter_set_last dW x idx upd (ix2 k o) (ix2 k j) ((landsW _ idx _).2 ⟨rfl, hj⟩) fun j' h' => ?_
  obtain ⟨h0, h1⟩ := (landsW j' idx _).1 h'
  have hle := hmax (j' 1) h1
  rw [Shape.rowMajor_val_two, Shape.rowMajor_val_two]
  have h0' : (j' 0).val = k.val := h0
  show (j' 0).val * 2048 + (j' 1).val ≤ k.val * 2048 + j.val
  omega

/-- With no compact channel sent to `o`, the weight scatter at (k, o) is the operand there. -/
theorem scatterW_none (x : Sw.Idx → α) (idx : IVec Stab 32) (upd : Uw.Idx → α) (k : Fin 2048) (o : Fin 4096)
    (hno : ∀ j : Fin 2048, (idx (ix2 j 0)).toInt ≠ (o.val : Int)) :
    Host.scatter dW (fun _ b => b) x idx upd (ix2 k o) = x (ix2 k o) :=
  scatter_set_miss dW x idx upd (ix2 k o) fun j h => hno (j 1) ((landsW j idx _).1 h).2

/-- With a last compact channel `j` sent to `o`, the result scatter at (b, s, o) is the update at (b, s, j). -/
theorem scatterY_last (x : Sy.Idx → α) (idx : IVec Stab 32) (upd : Uy.Idx → α) (b : Fin 4) (s : Fin 2048) (o : Fin 4096) (j : Fin 2048)
    (hj : (idx (ix2 j 0)).toInt = (o.val : Int)) (hmax : ∀ j' : Fin 2048, (idx (ix2 j' 0)).toInt = (o.val : Int) → j'.val ≤ j.val) :
    Host.scatter dY (fun _ b => b) x idx upd (ix3 b s o) = upd (ix3 b s j) := by
  refine scatter_set_last dY x idx upd (ix3 b s o) (ix3 b s j) ((landsY _ idx _).2 ⟨rfl, rfl, hj⟩) fun j' h' => ?_
  obtain ⟨h0, h1, h2⟩ := (landsY j' idx _).1 h'
  have hle := hmax (j' 2) h2
  rw [Shape.rowMajor_val_three, Shape.rowMajor_val_three]
  have h0' : (j' 0).val = b.val := h0
  have h1' : (j' 1).val = s.val := h1
  show ((j' 0).val * 2048 + (j' 1).val) * 2048 + (j' 2).val ≤ (b.val * 2048 + s.val) * 2048 + j.val
  rw [h0', h1']
  omega

/-- With no compact channel sent to `o`, the result scatter at (b, s, o) is the operand there. -/
theorem scatterY_none (x : Sy.Idx → α) (idx : IVec Stab 32) (upd : Uy.Idx → α) (b : Fin 4) (s : Fin 2048) (o : Fin 4096)
    (hno : ∀ j : Fin 2048, (idx (ix2 j 0)).toInt ≠ (o.val : Int)) :
    Host.scatter dY (fun _ b => b) x idx upd (ix3 b s o) = x (ix3 b s o) :=
  scatter_set_miss dY x idx upd (ix3 b s o) fun j h => hno (j 2) ((landsY j idx _).1 h).2.2

end Read

/-! ## The product after the weight scatter is the result scatter after the product -/

/-- Either some compact channel is sent to `o`, and then there is a last one, or none is. -/
theorem last_or_none (idx : IVec Stab 32) (o : Fin 4096) :
    (∃ j : Fin 2048, (idx (ix2 j 0)).toInt = (o.val : Int) ∧
        ∀ j' : Fin 2048, (idx (ix2 j' 0)).toInt = (o.val : Int) → j'.val ≤ j.val)
      ∨ ∀ j : Fin 2048, (idx (ix2 j 0)).toInt ≠ (o.val : Int) := by
  classical
  by_cases h : ∃ j : Fin 2048, (idx (ix2 j 0)).toInt = (o.val : Int)
  · left
    have hne : (Finset.univ.filter fun j : Fin 2048 => (idx (ix2 j 0)).toInt = (o.val : Int)).Nonempty := by
      obtain ⟨j, hj⟩ := h
      exact ⟨j, Finset.mem_filter.2 ⟨Finset.mem_univ j, hj⟩⟩
    obtain ⟨j, hjm, hjmax⟩ := Finset.exists_max_image _ (fun j : Fin 2048 => j.val) hne
    exact ⟨j, (Finset.mem_filter.1 hjm).2, fun j' hj' => hjmax j' (Finset.mem_filter.2 ⟨Finset.mem_univ j', hj'⟩)⟩
  · right
    exact fun j hj => h ⟨j, hj⟩

/-- THE CHANNEL LAW.  `updW` is W transposed and `updY` the products of the rows of T with the rows of W; then row
    (b, s) of T times column `o` of the scattered weight is entry (b, s, o) of the scattered products. -/
theorem channel_law (T : Uy.Idx → EReal) (W : Uw.Idx → EReal) (idx : IVec Stab 32)
    (updW : Uw.Idx → EReal) (updY : Uy.Idx → EReal)
    (hW : ∀ (k j : Fin 2048), updW (ix2 k j) = W (ix2 j k))
    (hY : ∀ (b : Fin 4) (s : Fin 2048) (j : Fin 2048), updY (ix3 b s j) = ∑ k : Fin 2048, T (ix3 b s k) * W (ix2 j k))
    (b : Fin 4) (s : Fin 2048) (o : Fin 4096) :
    (∑ k : Fin 2048, T (ix3 b s k) * Host.scatter dW (fun _ b => b) (fun _ => (0 : EReal)) idx updW (ix2 k o))
      = Host.scatter dY (fun _ b => b) (fun _ => (0 : EReal)) idx updY (ix3 b s o) := by
  rcases last_or_none idx o with ⟨j, hj, hmax⟩ | hno
  · rw [scatterY_last _ idx updY b s o j hj hmax, hY]
    refine Finset.sum_congr rfl fun k _ => ?_
    rw [scatterW_last _ idx updW k o j hj hmax, hW]
  · rw [scatterY_none _ idx updY b s o hno]
    refine Finset.sum_eq_zero fun k _ => ?_
    rw [scatterW_none _ idx updW k o hno, mul_zero]

end Cert.Channels

end
-- ==== Proof.Bridge.lean ====
/-
  The two results are one function of the arguments.

  At (b, s, o) the kernel's result is the sum over k of (gathered activations) (b, s, k) · wfull (k, o) plus
  bias (o), where wfull is the scaled weight transposed and scattered along its columns; the reference's is the
  scatter, along the last axis, of the products (gathered activations) (b, s, ·) · (scaled weight) (j, ·), plus
  bias (o).  Both scatters read the same table, so the channel law joins them; the reshapes only rename
  row 2048 b + s as (b, s); the changes of float format are the identity on the extended reals.
-/
import proofs.«416049_j77438260346927_3_alg».proof.Proof.KernelOut
import proofs.«416049_j77438260346927_3_alg».proof.Proof.RefRun
import proofs.«416049_j77438260346927_3_alg».proof.Proof.ScatterChannels
import proofs.«416049_j77438260346927_3_alg».proof.Proof.LibDots
import Idealize.ShloMosaic.Lib.Pipeline.Value
import Idealize.ShloMosaic.Lib.ValueIdx

noncomputable section

open Idealize.ShloMosaic Idealize.ShloMosaic.ValueIdx

namespace Cert.Bridge

/-- The scaled weight, as the reference spells it. -/
abbrev scaled (cw : FVec Ideal Cert.ReferenceIdeal.S2048x2048 .f32) : FVec Ideal Cert.ReferenceIdeal.S2048x2048 .f32 :=
  mulf cw (broadcastInDim Cert.ReferenceIdeal.S2048x2048 ![] Cert.ReferenceIdeal.Gen.bcast_S_S2048x2048
    (constant Cert.ReferenceIdeal.S_ .f32 0x3D4CCCCD#32))

/-- An array of zeros, broadcast from the zero word, reads zero everywhere. -/
theorem zeros_apply {t : Shape} (h : (⟨0, ![]⟩ : Shape).BroadcastsInDim t (![] : Fin 0 → Fin t.rank)) (i : t.Idx) :
    (broadcastInDim t ![] h (constant (F := Ideal) ⟨0, ![]⟩ .f32 0x00000000#32) : FVec Ideal t .f32) i = (0 : EReal) := by
  refine (broadcastInDim_apply _ h _ i ix0 (fun a => a.elim0)).trans ?_
  rw [constant_apply]
  exact Ideal.ofBits_zero_f32

/-- The kernel's gathered activations laid out as 8192 rows: row 2048 b + s is (b, s). -/
theorem xflat_apply (x : FVec Ideal Cert.KernelIdeal.S4x2048x4096 .f32) (cols : IVec Cert.KernelIdeal.S2048 32)
    (b : Fin 4) (s : Fin 2048) (k : Fin 2048) (r : Fin 8192) (hr : r.val = b.val * 2048 + s.val) :
    Cert.KernelIdeal.Hand.xflat x cols (ix2 r k) = Cert.Shared.takeCols x cols (ix3 b s k) := by
  unfold Cert.KernelIdeal.Hand.xflat
  refine (shapeCast_apply _ _ (ix2 r k) (ix3 b s k) ?_).trans ?_
  · rw [Shape.rowMajor_val_three, Shape.rowMajor_val_two]
    show (b.val * 2048 + s.val) * 2048 + k.val = r.val * 2048 + k.val
    rw [hr]
  · rfl

/-- The bias as one row reads the bias. -/
theorem bias2_apply (bias : FVec Ideal Cert.KernelIdeal.S4096 .f32) (o : Fin 4096) :
    Cert.KernelIdeal.Hand.bias2 bias (ix2 0 o) = bias (ix1 o) := by
  unfold Cert.KernelIdeal.Hand.bias2
  refine shapeCast_apply _ _ (ix2 0 o) (ix1 o) ?_
  rw [Shape.rowMajor_val_one, Shape.rowMajor_val_two]
  show o.val = 0 * 4096 + o.val
  omega

/-- The bias broadcast along the two leading axes reads the bias at the last coordinate. -/
theorem biasBcast_apply (bias : FVec Ideal Cert.ReferenceIdeal.S4096 .f32) (b : Fin 4) (s : Fin 2048) (o : Fin 4096) :
    (broadcastInDim Cert.ReferenceIdeal.S4x2048x4096 ![0, 1, 2] Cert.ReferenceIdeal.Gen.bcast_S1x1x4096_S4x2048x4096_0_1_2
      (broadcastInDim Cert.ReferenceIdeal.S1x1x4096 ![2] Cert.ReferenceIdeal.Gen.bcast_S4096_S1x1x4096_2 bias)) (ix3 b s o)
      = bias (ix1 o) := by
  refine (broadcastInDim_apply _ _ _ (ix3 b s o) (ix3 0 0 o) (fun a => ?_)).trans ?_
  · match a with
    | ⟨0, _⟩ => rfl
    | ⟨1, _⟩ => rfl
    | ⟨2, _⟩ => rfl
  · refine broadcastInDim_apply _ _ _ (ix3 0 0 o) (ix1 o) (fun a => ?_)
    match a with
    | ⟨0, _⟩ => rfl

/-- THE TWO RESULTS AGREE, entry by entry. -/
theorem out_eq (x : FVec Ideal Cert.ReferenceIdeal.S4x2048x4096 .f32) (cw : FVec Ideal Cert.ReferenceIdeal.S2048x2048 .f32)
    (bias : FVec Ideal Cert.ReferenceIdeal.S4096 .f32) (rows cols : IVec Cert.ReferenceIdeal.S2048 32) :
    Cert.KernelIdeal.Hand.out x cw bias rows cols = Cert.ReferenceIdeal.Hand.out x cw bias rows cols := by
  funext i
  obtain ⟨b, s, o, rfl⟩ : ∃ (b : Fin 4) (s : Fin 2048) (o : Fin 4096), i = ix3 b s o := ⟨i 0, i 1, i 2, eq_ix3 i⟩
  have hlt : b.val * 2048 + s.val < 8192 := by have := b.isLt; have := s.isLt; omega
  -- the kernel's side: row 2048 b + s of the product, plus the bias
  have hK : Cert.KernelIdeal.Hand.out x cw bias rows cols (ix3 b s o)
      = (∑ k : Fin 2048, Cert.Shared.takeCols x cols (ix3 b s k) * Cert.KernelIdeal.Hand.wfull cw rows (ix2 k o)) + bias (ix1 o) := by
    unfold Cert.KernelIdeal.Hand.out
    refine (shapeCast_apply _ _ (ix3 b s o) (ix2 (⟨b.val * 2048 + s.val, hlt⟩ : Fin 8192) o) ?_).trans ?_
    · rw [Shape.rowMajor_val_three, Shape.rowMajor_val_two]
      rfl
    · rw [Cert.KernelIdeal.Hand.G_apply]
      unfold Cert.KernelIdeal.Hand.entry
      rw [bias2_apply]
      refine congrArg (· + bias (ix1 o)) (Finset.sum_congr rfl fun k _ => ?_)
      rw [xflat_apply x cols b s k _ rfl]
  -- the reference's side: the scattered products, plus the bias
  have hR : Cert.ReferenceIdeal.Hand.out x cw bias rows cols (ix3 b s o)
      = Host.scatter Cert.Channels.dY (fun _ b => b) (fun _ => (0 : EReal)) (Cert.Shared.chanIdx rows)
          (Host.dotGeneral Cert.ReferenceIdeal.dot_S4x2048x2048_S2048x2048_S4x2048x2048_2_1_01_0_n_n none
            (Cert.Shared.takeCols x cols) (scaled cw)) (ix3 b s o) + bias (ix1 o) := by
    unfold Cert.ReferenceIdeal.Hand.out
    rw [addf_apply, biasBcast_apply]
    refine congrArg (· + bias (ix1 o)) ?_
    refine congrArg (fun z : Cert.Channels.Sy.Idx → EReal =>
      Host.scatter Cert.Channels.dY (fun _ b => b) z (Cert.Shared.chanIdx rows)
        (Host.dotGeneral Cert.ReferenceIdeal.dot_S4x2048x2048_S2048x2048_S4x2048x2048_2_1_01_0_n_n none
          (Cert.Shared.takeCols x cols) (scaled cw)) (ix3 b s o)) (funext fun j => zeros_apply _ j)
  -- the kernel's scattered weight
  have hWf : ∀ k : Fin 2048, Cert.KernelIdeal.Hand.wfull cw rows (ix2 k o)
      = Host.scatter Cert.Channels.dW (fun _ b => b) (fun _ => (0 : EReal)) (Cert.Shared.chanIdx rows)
          (transpose Cert.KernelIdeal.S2048x2048 [1, 0] (scaled cw) Cert.KernelIdeal.Gen.transposes_S2048x2048_S2048x2048_1_0) (ix2 k o) := by
    intro k
    unfold Cert.KernelIdeal.Hand.wfull
    rw [truncf_apply]
    exact congrArg (fun z : Cert.Channels.Sw.Idx → EReal =>
      Host.scatter Cert.Channels.dW (fun _ b => b) z (Cert.Shared.chanIdx rows)
        (transpose Cert.KernelIdeal.S2048x2048 [1, 0] (scaled cw) Cert.KernelIdeal.Gen.transposes_S2048x2048_S2048x2048_1_0) (ix2 k o))
      (funext fun j => zeros_apply _ j)
  rw [hK, hR]
  refine congrArg (· + bias (ix1 o)) ?_
  simp only [hWf]
  refine Cert.Channels.channel_law (Cert.Shared.takeCols x cols) (scaled cw) (Cert.Shared.chanIdx rows) _ _ ?_ ?_ b s o
  · intro k j
    refine transpose_apply _ _ _ (ix2 k j) (ix2 j k) fun a => ?_
    match a with
    | ⟨0, _⟩ => rfl
    | ⟨1, _⟩ => rfl
  · intro b' s' j
    exact Cert.Lib.Dots.dotGeneral_rank3_rowsT_apply _ none (Cert.Shared.takeCols x cols) (scaled cw) b' s' j

end Cert.Bridge

end
-- ==== Proof.lean ====
/-
  The certificate of a sparse-channel linear layer: a Pallas matrix product with the output scatter folded into its
  weight, against the plain jnp formulation, equal over the extended reals.

  Both programs gather 2048 of the 4096 input channels of the activations (the channels `active_cols` names) and
  scale the 2048 × 2048 compact weight by the constant 0.05.  The reference multiplies the gathered activations by
  the scaled weight, writes the 2048 products of each row at the output channels `active_rows` names into 4096
  zeros, and adds the bias.  The kernel first writes the columns of the transposed scaled weight at those channels
  into a 2048 × 4096 array of zeros, multiplies the gathered activations by that array 256 rows at a time, and adds
  the bias inside the product's block.  At output channel o both give the product with the LAST compact channel
  that `active_rows` sends to o — both scatters visit the compact channels in the same order — or, when no
  compact channel is sent to o, a sum of products with zero, which is zero on the extended reals whatever the
  activations hold.  So nothing is asked of the channel numbers (repeated or out-of-range ones included), and the
  finiteness of the inputs is never used.  The changes of float format are the identity on the extended reals and
  the matrix product into a zero accumulator is the plain sum of products.

  The word-level kernel's and the idealized kernel's frames are the generated ones; the reference's frame is its
  run with the result dropped; the ideal pass rewrote nothing, so `preserves` is trivial.
-/
import proofs.«416049_j77438260346927_3_alg».proof.Defs
import proofs.«416049_j77438260346927_3_alg».proof.Proof.Gen.Kernel
import proofs.«416049_j77438260346927_3_alg».proof.Proof.Gen.Kernel.Skeleton
import proofs.«416049_j77438260346927_3_alg».proof.Proof.Gen.Kernel.Launch
import proofs.«416049_j77438260346927_3_alg».proof.Proof.Gen.Kernel.Points
import proofs.«416049_j77438260346927_3_alg».proof.Proof.Gen.Kernel.Frame
import proofs.«416049_j77438260346927_3_alg».proof.Proof.Gen.KernelIdeal
import proofs.«416049_j77438260346927_3_alg».proof.Proof.Gen.KernelIdeal.Skeleton
import proofs.«416049_j77438260346927_3_alg».proof.Proof.Gen.KernelIdeal.Launch
import proofs.«416049_j77438260346927_3_alg».proof.Proof.Gen.KernelIdeal.Points
import proofs.«416049_j77438260346927_3_alg».proof.Proof.Gen.KernelIdeal.Frame
import proofs.«416049_j77438260346927_3_alg».proof.Proof.Gen.ReferenceIdeal
import proofs.«416049_j77438260346927_3_alg».proof.Proof.Gen.Pre_finite_inputs
import proofs.«416049_j77438260346927_3_alg».proof.Proof.KernelValue
import proofs.«416049_j77438260346927_3_alg».proof.Proof.RefRun
import proofs.«416049_j77438260346927_3_alg».proof.Proof.Bridge
import Idealize.ShloMosaic.Adequacy
import Idealize.ShloMosaic.Init

noncomputable section

namespace Cert.Proof

open Idealize.ShloMosaic Idealize.SL.Sem

theorem frame_k : Cert.frame_Kernel := fun m ρ _ => Cert.Kernel.Gen.frame m ρ

theorem frame_ki : Cert.frame_KernelIdeal := fun m ρ _ => Cert.KernelIdeal.Gen.frame m ρ

/-- The reference's frame: its run, the result dropped. -/
theorem frame_ri : Cert.frame_ReferenceIdeal := fun m ρ _ =>
  (θ_run Cert.ReferenceIdeal.defs _ _).mono (fun _ h c => (h c).2) (Cert.ReferenceIdeal.Hand.run (F := Ideal) m ρ)

theorem preserves : Cert.preserves_Kernel_KernelIdeal := trivial

/-- Both programs end with the result at one function of the arguments: the kernel's `out`, which the reference's
    equals entry by entry. -/
theorem algebraic : Cert.algebraic_KernelIdeal_ReferenceIdeal := by
  intro m ρ m' ρ' _ hagree
  refine ⟨_, Cert.KernelIdeal.Hand.run m ρ, ?_⟩
  refine (θ_run Cert.ReferenceIdeal.defs _ _).mono (fun _ h c => ⟨(h c).1.trans ?_, (h c).2⟩)
    (Cert.ReferenceIdeal.Hand.run (F := Ideal) m' ρ')
  rw [(hagree c).1, (hagree c).2.1, (hagree c).2.2.1, (hagree c).2.2.2.1, (hagree c).2.2.2.2]
  exact (Cert.Bridge.out_eq _ _ _ _ _).symm

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
